-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x2048 : Shape := ⟨2, ![4096, 2048]⟩
abbrev S1x4096 : Shape := ⟨2, ![1, 4096]⟩
abbrev S4096x256 : Shape := ⟨2, ![4096, 256]⟩
abbrev S256 : Shape := ⟨1, ![256]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S1x4096 : S_.BroadcastsInDim S1x4096 (![] : Fin 0 → Fin S1x4096.rank)
  reducesTo_S1x4096_S_d0_1 : S1x4096.ReducesTo [0, 1] S_
  bcast_S_S4096x256 : S_.BroadcastsInDim S4096x256 (![] : Fin 0 → Fin S4096x256.rank)
  reducesTo_S4096x256_S_d0_1 : S4096x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : IVec S256 32) (main_v13 : IVec S_ 1) (main_v15 : IVec S256 1) (main_c_5 : IVec S_ 32) : IVec S_ 1 :=
  let main_v16 : IVec S256 32 := broadcastInDim S256 ![] bcast_S_S256 main_c_5
  let main_v17 : IVec S256 1 := cmpi .slt main_arg4 main_v16
  let main_v18 : IVec S256 1 := andi main_v15 main_v17
  let main_c_6 : IVec S_ 1 := constantI S_ 1 1#1
  let main_v19 : IVec S_ 1 := (fun x v => Host.reduce IntOp.andi x v reducesTo_S256_S_d0 h_S_) main_v18 main_c_6
  let main_v20 : IVec S_ 1 := andi main_v13 main_v19
  main_v20

def fn {F : FTy → Type} [FloatOps F] (main_arg0 : FVec F S4x2048x4096 .f32) (main_arg1 : IVec S4096x2048 32) (main_arg2 : FVec F S1x4096 .f32) (main_arg3 : FVec F S4096x256 .f32) (main_arg4 : IVec S256 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S1x4096 .f32 := Host.absf main_arg2
  let main_cst_0 : FVec F S_ .f32 := constant S_ .f32 0x7F800000#32
  let main_v5 : FVec F S1x4096 .f32 := broadcastInDim S1x4096 ![] bcast_S_S1x4096 main_cst_0
  let main_v6 : IVec S1x4096 1 := cmpf .olt main_v4 main_v5
  let main_c_1 : IVec S_ 1 := constantI S_ 1 1#1
  let main_v7 : IVec S_ 1 := (fun x v => Host.reduce IntOp.andi x v reducesTo_S1x4096_S_d0_1 h_S_) main_v6 main_c_1
  let main_v8 : IVec S_ 1 := andi main_v3 main_v7
  let main_v9 : FVec F S4096x256 .f32 := Host.absf main_arg3
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_c_4 : IVec S_ 32 := constantI S_ 32 0#32
  let main_v14 : IVec S256 32 := broadcastInDim S256 ![] bcast_S_S256 main_c_4
  let main_v15 : IVec S256 1 := cmpi .sge main_arg4 main_v14
  let main_c_5 : IVec S_ 32 := constantI S_ 32 4096#32
  fn_part1 (F := F) main_arg4 main_v13 main_v15 main_c_5
-- ==== Kernel.lean ====
abbrev S4x2048x4096 : Shape := ⟨3, ![4, 2048, 4096]⟩
abbrev S4096x2048 : Shape := ⟨2, ![4096, 2048]⟩
abbrev S1x4096 : Shape := ⟨2, ![1, 4096]⟩
abbrev S4096x256 : Shape := ⟨2, ![4096, 256]⟩
abbrev S256 : Shape := ⟨1, ![256]⟩
abbrev S8192x4096 : Shape := ⟨2, ![8192, 4096]⟩
abbrev S_ : Shape := ⟨0, ![]⟩
abbrev S4096 : Shape := ⟨1, ![4096]⟩
abbrev S256x1 : Shape := ⟨2, ![256, 1]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S1 : Shape := ⟨1, ![1]⟩
abbrev S1x1 : Shape := ⟨2, ![1, 1]⟩
abbrev S8192x256 : Shape := ⟨2, ![8192, 256]⟩
abbrev S8192x1 : Shape := ⟨2, ![8192, 1]⟩
abbrev S512x4096 : Shape := ⟨2, ![512, 4096]⟩
abbrev S512x1 : Shape := ⟨2, ![512, 1]⟩
abbrev S512 : Shape := ⟨1, ![512]⟩
abbrev S1024x4096 : Shape := ⟨2, ![1024, 4096]⟩
abbrev S1024x256 : Shape := ⟨2, ![1024, 256]⟩
abbrev S512x256 : Shape := ⟨2, ![512, 256]⟩
abbrev S1024x1 : Shape := ⟨2, ![1024, 1]⟩
abbrev S1x512 : Shape := ⟨2, ![1, 512]⟩
abbrev S1024x512 : Shape := ⟨2, ![1024, 512]⟩

abbrev nBuf : Space → Nat
  | .hbm => 70
  | .vmem => 21
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .i32⟩
  | .hbm, ⟨2, _⟩ => ⟨S1x4096, .f32⟩
  | .hbm, ⟨3, _⟩ => ⟨S4096x256, .f32⟩
  | .hbm, ⟨4, _⟩ => ⟨S256, .i32⟩
  | .hbm, ⟨5, _⟩ => ⟨S8192x4096, .f32⟩
  | .hbm, ⟨6, _⟩ => ⟨S_, .f32⟩
  | .hbm, ⟨7, _⟩ => ⟨S4096, .f32⟩
  | .hbm, ⟨8, _⟩ => ⟨S_, .i32⟩
  | .hbm, ⟨9, _⟩ => ⟨S256, .i32⟩
  | .hbm, ⟨10, _⟩ => ⟨S256, .i1⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S256, .i32⟩
  | .hbm, ⟨15, _⟩ => ⟨S256x1, .i32⟩
  | .hbm, ⟨16, _⟩ => ⟨S_, .f32⟩
  | .hbm, ⟨17, _⟩ => ⟨S256, .f32⟩
  | .hbm, ⟨18, _⟩ => ⟨S4096, .f32⟩
  | .hbm, ⟨19, _⟩ => ⟨S1x4096, .f32⟩
  | .hbm, ⟨20, _⟩ => ⟨S_, .i32⟩
  | .hbm, ⟨21, _⟩ => ⟨S4096x2048, .i32⟩
  | .hbm, ⟨22, _⟩ => ⟨S4096x2048, .i32⟩
  | .hbm, ⟨23, _⟩ => ⟨S_, .i32⟩
  | .hbm, ⟨24, _⟩ => ⟨S4096x2048, .i32⟩
  | .hbm, ⟨25, _⟩ => ⟨S4096x2048, .i32⟩
  | .hbm, ⟨26, _⟩ => ⟨S_, .i32⟩
  | .hbm, ⟨27, _⟩ => ⟨S4096x2048, .i32⟩
  | .hbm, ⟨28, _⟩ => ⟨S4096x2048, .i32⟩
  | .hbm, ⟨29, _⟩ => ⟨S4096x2048x1, .i32⟩
  | .hbm, ⟨30, _⟩ => ⟨S4096x2048x1, .i32⟩
  | .hbm, ⟨31, _⟩ => ⟨S4096x2048x2, .i32⟩
  | .hbm, ⟨32, _⟩ => ⟨S4096x4096, .i32⟩
  | .hbm, ⟨33, _⟩ => ⟨S_, .i32⟩
  | .hbm, ⟨34, _⟩ => ⟨S4096x4096, .i32⟩
  | .hbm, ⟨35, _⟩ => ⟨S4096x4096, .i1⟩
  | .hbm, ⟨36, _⟩ => ⟨S_, .i32⟩
  | .hbm, ⟨37, _⟩ => ⟨S4096x4096, .i32⟩
  | .hbm, ⟨38, _⟩ => ⟨S4096x4096, .i32⟩
  | .hbm, ⟨39, _⟩ => ⟨S4096x4096, .i32⟩
  | .hbm, ⟨40, _⟩ => ⟨S4096x4096, .bf16⟩
  | .hbm, ⟨41, _⟩ => ⟨S_, .i32⟩
  | .hbm, ⟨42, _⟩ => ⟨S256, .i32⟩
  | .hbm, ⟨43, _⟩ => ⟨S256, .i1⟩
  | .hbm, ⟨44, _⟩ => ⟨S_, .i32⟩
  | .hbm, ⟨45, _⟩ => ⟨S256, .i32⟩
  | .hbm, ⟨46, _⟩ => ⟨S256, .i32⟩
  | .hbm, ⟨47, _⟩ => ⟨S256, .i32⟩
  | .hbm, ⟨48, _⟩ => ⟨S256x1, .i32⟩
  | .hbm, ⟨49, _⟩ => ⟨S1, .i32⟩
  | .hbm, ⟨50, _⟩ => ⟨S_, .i32⟩
  | .hbm, ⟨51, _⟩ => ⟨S256x1, .i32⟩
  | .hbm, ⟨52, _⟩ => ⟨S256x1, .i1⟩
  | .hbm, ⟨53, _⟩ => ⟨S1x1, .i32⟩
  | .hbm, ⟨54, _⟩ => ⟨S256x1, .i32⟩
  | .hbm, ⟨55, _⟩ => ⟨S256x1, .i1⟩
  | .hbm, ⟨56, _⟩ => ⟨S256x1, .i1⟩
  | .hbm, ⟨57, _⟩ => ⟨S_, .i1⟩
  | .hbm, ⟨58, _⟩ => ⟨S256, .i1⟩
  | .hbm, ⟨59, _⟩ => ⟨S8192x256, .f32⟩
  | .hbm, ⟨60, _⟩ => ⟨S8192x256, .i1⟩
  | .hbm, ⟨61, _⟩ => ⟨S_, .f32⟩
  | .hbm, ⟨62, _⟩ => ⟨S8192x256, .f32⟩
  | .hbm, ⟨63, _⟩ => ⟨S8192x256, .f32⟩
  | .hbm, ⟨64, _⟩ => ⟨S8192x256, .bf16⟩
  | .hbm, ⟨65, _⟩ => ⟨S4096x256, .bf16⟩
  | .hbm, ⟨66, _⟩ => ⟨S8192x4096, .bf16⟩
  | .hbm, ⟨67, _⟩ => ⟨S8192x1, .f32⟩
  | .hbm, ⟨68, _⟩ => ⟨S8192x4096, .f32⟩
  | .hbm, ⟨69, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S512x1, .f32⟩
  | .local _ .vmem, ⟨6, _⟩ => ⟨S512x1, .f32⟩
  | .local _ .vmem, ⟨7, _⟩ => ⟨S1024x4096, .bf16⟩
  | .local _ .vmem, ⟨8, _⟩ => ⟨S1024x4096, .bf16⟩
  | .local _ .vmem, ⟨9, _⟩ => ⟨S512x4096, .bf16⟩
  | .local _ .vmem, ⟨10, _⟩ => ⟨S512x4096, .bf16⟩
  | .local _ .vmem, ⟨11, _⟩ => ⟨S1024x256, .bf16⟩
  | .local _ .vmem, ⟨12, _⟩ => ⟨S1024x256, .bf16⟩
  | .local _ .vmem, ⟨13, _⟩ => ⟨S512x256, .bf16⟩
  | .local _ .vmem, ⟨14, _⟩ => ⟨S512x256, .bf16⟩
  | .local _ .vmem, ⟨15, _⟩ => ⟨S1024x1, .f32⟩
  | .local _ .vmem, ⟨16, _⟩ => ⟨S1024x1, .f32⟩
  | .local _ .vmem, ⟨17, _⟩ => ⟨S1x512, .f32⟩
  | .local _ .vmem, ⟨18, _⟩ => ⟨S1x512, .f32⟩
  | .local _ .vmem, ⟨19, _⟩ => ⟨S1024x512, .f32⟩
  | .local _ .vmem, ⟨20, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30_0 : Ref sig .tc := ⟨.hbm, 66, rfl⟩
abbrev main_v30_1 : Ref sig .tc := ⟨.hbm, 67, rfl⟩
abbrev main_v31 : Ref sig .tc := ⟨.hbm, 68, rfl⟩
abbrev main_v32 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S4x2048x4096_S8192x4096 : S4x2048x4096.ShapeCasts S8192x4096
  bcast_S_S4096 : S_.BroadcastsInDim S4096 (![] : Fin 0 → Fin S4096.rank)
  bcast_S_S256 : S_.BroadcastsInDim S256 (![] : Fin 0 → Fin S256.rank)
  bcast_S256_S256x1_0 : S256.BroadcastsInDim S256x1 (![0] : Fin 1 → Fin S256x1.rank)
  shapeCasts_S4096_S1x4096 : S4096.ShapeCasts S1x4096
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S_S4096x4096 : S_.BroadcastsInDim S4096x4096 (![] : Fin 0 → Fin S4096x4096.rank)
  bcast_S_S256x1 : S_.BroadcastsInDim S256x1 (![] : Fin 0 → Fin S256x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S256x1_S256_d1 : S256x1.ReducesTo [1] S256
  h_S_ : 0 < S_.numel
  bcast_S256_S8192x256_1 : S256.BroadcastsInDim S8192x256 (![1] : Fin 1 → Fin S8192x256.rank)
  bcast_S_S8192x256 : S_.BroadcastsInDim S8192x256 (![] : Fin 0 → Fin S8192x256.rank)
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  reduces_S512x4096_S512 : S512x4096.Reduces [1] S512
  shapeCasts_S512_S512x1 : S512.ShapeCasts S512x1
  broadcasts_S512x1_S512x4096 : S512x1.Broadcasts S512x4096
  packedbf16_S512x4096_S512x4096_0_0 : (Rect.unit (s := S512x4096) ![0, 0] S512x4096.size inb_S512x4096_S512x4096_0_0).PackedRows (EltTy.packing .bf16)
  inb_S512x1_S512x1_0_0 : ∀ a, (![0, 0] : Fin 2 → Nat) a + S512x1.size a ≤ S512x1.size a
  h_S512x1 : 0 < S512x1.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  inb_S1x512_S1x512_0_0 : ∀ a, (![0, 0] : Fin 2 → Nat) a + S1x512.size a ≤ S1x512.size a
  h_S1x512 : 0 < S1x512.numel
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x4096_S4x2048x4096 : S8192x4096.ShapeCasts S4x2048x4096
  scatter_S4096_S256x1_S256_n_0_0_1_wf : ScatterDims.WF S4096 S256x1 S256 [] [0] [0] 1
  gather_S8192x4096_S256x1_S8192x256_0_1_n_n_1_1_81921_wf : GatherDims.WF S8192x4096 S256x1 S8192x256 [0] [1] [] [1] [] 1 ![8192, 1]
  dot_S1024x4096_S512x4096_S1024x512_1_1_0_0_n_n_wf : DotDims.WF S1024x4096 S512x4096 S1024x512 [1] [1] [0] [0] [] []
  dot_S1024x256_S512x256_S1024x512_1_1_0_0_n_n_wf : DotDims.WF S1024x256 S512x256 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S8192x4096.size a
  hwx0_2 : ∀ i : grid0.Coords, EltTy.bits .bf16 = 32 ∨ (Rect.block (s := S8192x4096) S512x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .bf16 = 32 ∨ (Rect.block (s := S8192x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .bf16 = 32 ∨ (Rect.block (s := S8192x256) S1024x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S4096x256.size a
  hwx1_3 : ∀ i : grid1.Coords, EltTy.bits .bf16 = 32 ∨ (Rect.block (s := S4096x256) S512x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x4096.size a
  hwx1_5 : ∀ i : grid1.Coords, EltTy.bits .f32 = 32 ∨ (Rect.block (s := S1x4096) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x512.size a ≤ S8192x4096.size a
  hwx1_6 : ∀ i : grid1.Coords, EltTy.bits .f32 = 32 ∨ (Rect.block (s := S8192x4096) S1024x512.size (cc1_transform_6 i) (hinb1_6 i)).WholeWords (EltTy.packing .f32)

variable [Facts₀]

def scatter_S4096_S256x1_S256_n_0_0_1 : ScatterDims S4096 S256x1 S256 where
  updateWindowDims := []
  insertedWindowDims := [0]
  scatterDimsToOperandDims := [0]
  indexVectorDim := 1
  wf := scatter_S4096_S256x1_S256_n_0_0_1_wf
def gather_S8192x4096_S256x1_S8192x256_0_1_n_n_1_1_81921 : GatherDims S8192x4096 S256x1 S8192x256 where
  offsetDims := [0]
  collapsedSliceDims := [1]
  operandBatchingDims := []
  startIndicesBatchingDims := []
  startIndexMap := [1]
  indexVectorDim := 1
  sliceSizes := ![8192, 1]
  wf := gather_S8192x4096_S256x1_S8192x256_0_1_n_n_1_1_81921_wf
def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf
def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30_0) S512x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30_1) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30_0) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S512x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v30_1) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg2) S1x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v31) S1024x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x2048 : Shape := ⟨2, ![4096, 2048]⟩
abbrev S1x4096 : Shape := ⟨2, ![1, 4096]⟩
abbrev S4096x256 : Shape := ⟨2, ![4096, 256]⟩
abbrev S256 : Shape := ⟨1, ![256]⟩
abbrev S8192x4096 : Shape := ⟨2, ![8192, 4096]⟩
abbrev S_ : Shape := ⟨0, ![]⟩
abbrev S256x1 : Shape := ⟨2, ![256, 1]⟩
abbrev S8192x256 : Shape := ⟨2, ![8192, 256]⟩
abbrev S4096 : Shape := ⟨1, ![4096]⟩
abbrev S8192 : Shape := ⟨1, ![8192]⟩
abbrev S8192x1 : Shape := ⟨2, ![8192, 1]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S256x4096 : Shape := ⟨2, ![256, 4096]⟩

abbrev nBuf : Space → Nat
  | .hbm => 83
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .i32⟩
  | .hbm, ⟨2, _⟩ => ⟨S1x4096, .f32⟩
  | .hbm, ⟨3, _⟩ => ⟨S4096x256, .f32⟩
  | .hbm, ⟨4, _⟩ => ⟨S256, .i32⟩
  | .hbm, ⟨5, _⟩ => ⟨S8192x4096, .f32⟩
  | .hbm, ⟨6, _⟩ => ⟨S_, .i32⟩
  | .hbm, ⟨7, _⟩ => ⟨S256, .i32⟩
  | .hbm, ⟨8, _⟩ => ⟨S256, .i1⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S256x1, .i32⟩
  | .hbm, ⟨14, _⟩ => ⟨S8192x256, .f32⟩
  | .hbm, ⟨15, _⟩ => ⟨S_, .f32⟩
  | .hbm, ⟨16, _⟩ => ⟨S4096, .f32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S256x1, .i32⟩
  | .hbm, ⟨25, _⟩ => ⟨S_, .f32⟩
  | .hbm, ⟨26, _⟩ => ⟨S256, .f32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x4096, .f32⟩
  | .hbm, ⟨42, _⟩ => ⟨S8192x4096, .f32⟩
  | .hbm, ⟨43, _⟩ => ⟨S8192x4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192x4096, .f32⟩
  | .hbm, ⟨48, _⟩ => ⟨S8192x4096, .f32⟩
  | .hbm, ⟨49, _⟩ => ⟨S_, .f32⟩
  | .hbm, ⟨50, _⟩ => ⟨S8192x4096, .f32⟩
  | .hbm, ⟨51, _⟩ => ⟨S8192x4096, .f32⟩
  | .hbm, ⟨52, _⟩ => ⟨S_, .i32⟩
  | .hbm, ⟨53, _⟩ => ⟨S4096x2048, .i32⟩
  | .hbm, ⟨54, _⟩ => ⟨S4096x2048, .i32⟩
  | .hbm, ⟨55, _⟩ => ⟨S_, .i32⟩
  | .hbm, ⟨56, _⟩ => ⟨S4096x2048, .i32⟩
  | .hbm, ⟨57, _⟩ => ⟨S4096x2048, .i32⟩
  | .hbm, ⟨58, _⟩ => ⟨S_, .i32⟩
  | .hbm, ⟨59, _⟩ => ⟨S4096x2048, .i32⟩
  | .hbm, ⟨60, _⟩ => ⟨S4096x2048, .i32⟩
  | .hbm, ⟨61, _⟩ => ⟨S4096x2048x1, .i32⟩
  | .hbm, ⟨62, _⟩ => ⟨S4096x2048x1, .i32⟩
  | .hbm, ⟨63, _⟩ => ⟨S4096x2048x2, .i32⟩
  | .hbm, ⟨64, _⟩ => ⟨S4096x4096, .i32⟩
  | .hbm, ⟨65, _⟩ => ⟨S_, .i32⟩
  | .hbm, ⟨66, _⟩ => ⟨S4096x4096, .i32⟩
  | .hbm, ⟨67, _⟩ => ⟨S4096x4096, .i1⟩
  | .hbm, ⟨68, _⟩ => ⟨S_, .i32⟩
  | .hbm, ⟨69, _⟩ => ⟨S4096x4096, .i32⟩
  | .hbm, ⟨70, _⟩ => ⟨S4096x4096, .i32⟩
  | .hbm, ⟨71, _⟩ => ⟨S4096x4096, .i32⟩
  | .hbm, ⟨72, _⟩ => ⟨S4096x4096, .f32⟩
  | .hbm, ⟨73, _⟩ => ⟨S4096x4096, .f32⟩
  | .hbm, ⟨74, _⟩ => ⟨S8192x4096, .f32⟩
  | .hbm, ⟨75, _⟩ => ⟨S256x4096, .f32⟩
  | .hbm, ⟨76, _⟩ => ⟨S8192x4096, .f32⟩
  | .hbm, ⟨77, _⟩ => ⟨S8192x4096, .f32⟩
  | .hbm, ⟨78, _⟩ => ⟨S8192x4096, .f32⟩
  | .hbm, ⟨79, _⟩ => ⟨S8192x4096, .f32⟩
  | .hbm, ⟨80, _⟩ => ⟨S8192x4096, .f32⟩
  | .hbm, ⟨81, _⟩ => ⟨S8192x4096, .f32⟩
  | .hbm, ⟨82, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_cst_8 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v30 : Ref sig .tc := ⟨.hbm, 51, rfl⟩
abbrev main_c_9 : Ref sig .tc := ⟨.hbm, 52, rfl⟩
abbrev main_v31 : Ref sig .tc := ⟨.hbm, 53, rfl⟩
abbrev main_v32 : Ref sig .tc := ⟨.hbm, 54, rfl⟩
abbrev main_c_10 : Ref sig .tc := ⟨.hbm, 55, rfl⟩
abbrev main_v33 : Ref sig .tc := ⟨.hbm, 56, rfl⟩
abbrev main_v34 : Ref sig .tc := ⟨.hbm, 57, rfl⟩
abbrev main_c_11 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_12 : Ref sig .tc := ⟨.hbm, 65, rfl⟩
abbrev main_v41 : Ref sig .tc := ⟨.hbm, 66, rfl⟩
abbrev main_v42 : Ref sig .tc := ⟨.hbm, 67, rfl⟩
abbrev main_c_13 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S_S256 : S_.BroadcastsInDim S256 (![] : Fin 0 → Fin S256.rank)
  bcast_S256_S256x1_0 : S256.BroadcastsInDim S256x1 (![0] : Fin 1 → Fin S256x1.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S_S4096x4096 : S_.BroadcastsInDim S4096x4096 (![] : Fin 0 → Fin S4096x4096.rank)
  transposes_S4096x4096_S4096x4096_1_0 : S4096x4096.Transposes [1, 0] S4096x4096
  transposes_S4096x256_S256x4096_1_0 : S4096x256.Transposes [1, 0] S256x4096
  shapeCasts_S8192x4096_S4x2048x4096 : S8192x4096.ShapeCasts S4x2048x4096
  gather_S8192x4096_S256x1_S8192x256_0_1_n_n_1_1_81921_wf : GatherDims.WF S8192x4096 S256x1 S8192x256 [0] [1] [] [1] [] 1 ![8192, 1]
  scatter_S4096_S256x1_S256_n_0_0_1_wf : ScatterDims.WF S4096 S256x1 S256 [] [0] [0] 1
  dot_S8192x4096_S4096x4096_S8192x4096_1_0_0_1_n_n_wf : DotDims.WF S8192x4096 S4096x4096 S8192x4096 [1] [0] [0] [1] [] []
  dot_S8192x256_S256x4096_S8192x4096_1_0_0_1_n_n_wf : DotDims.WF S8192x256 S256x4096 S8192x4096 [1] [0] [0] [1] [] []

variable [Facts₀]

def gather_S8192x4096_S256x1_S8192x256_0_1_n_n_1_1_81921 : GatherDims S8192x4096 S256x1 S8192x256 where
  offsetDims := [0]
  collapsedSliceDims := [1]
  operandBatchingDims := []
  startIndicesBatchingDims := []
  startIndexMap := [1]
  indexVectorDim := 1
  sliceSizes := ![8192, 1]
  wf := gather_S8192x4096_S256x1_S8192x256_0_1_n_n_1_1_81921_wf
def scatter_S4096_S256x1_S256_n_0_0_1 : ScatterDims S4096 S256x1 S256 where
  updateWindowDims := []
  insertedWindowDims := [0]
  scatterDimsToOperandDims := [0]
  indexVectorDim := 1
  wf := scatter_S4096_S256x1_S256_n_0_0_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x256_S256x4096_S8192x4096_1_0_0_1_n_n : DotDims S8192x256 S256x4096 S8192x4096 where
  lhsContracting := [1]
  rhsContracting := [0]
  lhsNonContracting := [0]
  rhsNonContracting := [1]
  lhsBatch := []
  rhsBatch := []
  wf := dot_S8192x256_S256x4096_S8192x4096_1_0_0_1_n_n_wf

class Facts : Prop extends Facts₀ where

variable [Facts]
-- ==== Proof.Words.lean ====
/-
  One lane of the index vector, and a reduction by `and`.

  A 32-bit word `w` with 0 ≤ w and w < 4096, both read signed, is not negative, so the wrap of negative indices
  (w + 4096 where w < 0) leaves it alone, and it passes the range test 0 ≤ w ≤ 4095.  A reduction by `and`, from 1,
  of one-bit words that are all 1 is 1: the converse of reading an "all" back.
-/
import Idealize.ShloMosaic.Lib.ReduceAll
import Idealize.ShloMosaic.Lib.ValueIdx

namespace Cert.QuantGemm

open Idealize.ShloMosaic

theorem ofBool_eq_one (b : Bool) : BitVec.ofBool b = 1#1 ↔ b = true := by cases b <;> decide

/-- The word is in [0, 4096), as the two signed comparisons the precondition prints. -/
def InRange (w : BitVec 32) : Prop := IntOp.cmpi .sge w 0#32 = 1#1 ∧ IntOp.cmpi .slt w 4096#32 = 1#1

/-- Its signed reading is then between 0 and 4095. -/
theorem InRange.toInt_bounds {w : BitVec 32} (h : InRange w) : 0 ≤ w.toInt ∧ w.toInt < 4096 := by
  obtain ⟨h0, h1⟩ := h
  unfold IntOp.cmpi at h0 h1
  rw [ofBool_eq_one] at h0 h1
  simp only [BitVec.slt, BitVec.sle, decide_eq_true_eq] at h0 h1
  have e0 : (0#32 : BitVec 32).toInt = 0 := by decide
  have e1 : (4096#32 : BitVec 32).toInt = 4096 := by decide
  omega

/-- It is not negative. -/
theorem InRange.not_neg {w : BitVec 32} (h : InRange w) : IntOp.cmpi .slt w 0#32 = 0#1 := by
  have hb := h.toInt_bounds
  have e0 : (0#32 : BitVec 32).toInt = 0 := by decide
  unfold IntOp.cmpi
  have : w.slt 0#32 = false := by
    simp only [BitVec.slt, decide_eq_false_iff_not]
    omega
  rw [this]; rfl

/-- The wrap of negative indices leaves it alone. -/
theorem InRange.wrap_eq {w : BitVec 32} (h : InRange w) :
    Scalar.select (IntOp.cmpi .slt w 0#32) (IntOp.addi w 4096#32) w = w := by
  rw [h.not_neg]; exact ValueIdx.select_zero _ _

/-- It passes the range test 0 ≤ w ≤ 4095. -/
theorem InRange.test_eq_one {w : BitVec 32} (h : InRange w) :
    IntOp.andi (IntOp.cmpi .sge w 0#32) (IntOp.cmpi .sle w 4095#32) = 1#1 := by
  refine IntOp.andi_eq_one.2 ⟨h.1, ?_⟩
  have hb := h.toInt_bounds
  have e : (4095#32 : BitVec 32).toInt = 4095 := by decide
  unfold IntOp.cmpi
  rw [ofBool_eq_one]
  simp only [BitVec.sle, decide_eq_true_eq]
  omega

/-- A left fold by `and` from 1 over words that are all 1 is 1. -/
theorem foldl_andi_of_all {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, _, h, hl =>
    foldl_andi_of_all f l _ (IntOp.andi_eq_one.2 ⟨h, hl a (List.mem_cons_self ..)⟩)
      (fun n hn => hl n (List.mem_cons_of_mem _ hn))

/-- So a reduction by `and`, from 1, of an array of ones is 1 at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl]
  exact foldl_andi_of_all x _ _ hinit (fun n _ => hx n)

end Cert.QuantGemm
-- ==== Proof.PreDecode.lean ====
/-
  The precondition read back: its last conjunct says that every entry of the index vector, read signed, is at least 0
  and below 4096.
-/
import proofs.«422718_j68118181314581_3_alg».proof.Defs
import proofs.«422718_j68118181314581_3_alg».proof.Proof.Words
import Idealize.ShloMosaic.Lib.ReduceAll
import Idealize.ShloMosaic.Lib.ValueIdx

noncomputable section

namespace Cert.Proof.PreDecode

open Idealize.ShloMosaic Idealize.SL.Sem Cert.QuantGemm

instance : Subsingleton Cert.Pre_finite_inputs.S_.Idx := ⟨fun a b => funext fun d => d.elim0⟩

/-- Every entry of the index vector is in [0, 4096). -/
theorem ind_in_range [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (j : Cert.Pre_finite_inputs.S256.Idx) :
    InRange (m ((c.tc : Thread Cert.KernelIdeal.nD Cert.KernelIdeal.τ).loc Cert.KernelIdeal.main_arg4) j) := by
  have e := congrFun (h c) ValueIdx.ix0
  unfold Cert.Pre_finite_inputs.fn at e
  dsimp only at e
  unfold Cert.Pre_finite_inputs.fn_part1 at e
  dsimp only at e
  obtain ⟨-, hall⟩ := IntOp.andi_eq_one.1 e
  have hj := Host.reduce_andi_all _ _ _ _ _ hall j
  obtain ⟨h0, h1⟩ := IntOp.andi_eq_one.1 hj
  exact ⟨h0, h1⟩

end Cert.Proof.PreDecode

end
-- ==== Proof.Spec.lean ====
/-
  The mathematics of the certificate, with no program in sight.

  A row of activations is multiplied entry by entry with a 0/1 keep vector (the outlier columns are zeroed), its
  scale is the largest magnitude of the masked row over seven, each masked entry is divided by a divisor, rounded
  to the nearest integer (ties to even) and clipped to [-8, 7]; the quantized row is contracted with a weight row,
  the product is multiplied by the row's scale and by the output channel's scale, and the outlier product is
  added.  The two programs differ in the divisor only: one divides by the scale itself, the other by 1 where the
  scale is 0.  The difference does not reach the result: where the scale is 0 the contraction, whatever it is, is
  multiplied by 0, and on the extended reals every number times 0 is 0.
-/
import Idealize.ShloMosaic.PureOps.Ideal
import Idealize.ShloMosaic.PureOps.Ideal.Laws
import Idealize.ShloMosaic.Lib.ValueIdx

noncomputable section

open scoped BigOperators

namespace Cert.QuantGemm

open Idealize.ShloMosaic

/-- The largest magnitude of a row of 4096 entries: the maximum, from minus infinity, of the absolute values. -/
def absMax (z : Fin 4096 → EReal) : EReal :=
  (Finset.univ : Finset (Fin 4096)).fold max (Ideal.ofBits .f32 0xFF800000#32)
    (fun k => FloatOps.absf (F := Ideal) (φ := .f32) (z k))

/-- The row's quantization scale: its largest magnitude over seven. -/
def rowScale (z : Fin 4096 → EReal) : EReal :=
  Ideal.div (absMax z) (Ideal.ofBits .f32 0x40E00000#32)

/-- The guarded divisor: 1 where the scale is 0, the scale elsewhere. -/
def guarded (s : EReal) : EReal :=
  Scalar.select (FloatOps.cmpf (F := Ideal) (φ := .f32) .oeq s (Ideal.ofBits .f32 0x00000000#32))
    (Ideal.ofBits .f32 0x3F800000#32) s

/-- One quantized entry: the quotient rounded to the nearest integer, ties to even, then clipped to [-8, 7]. -/
def quantize (z d : EReal) : EReal :=
  min (Ideal.ofBits .f32 0x40E00000#32)
    (max (Ideal.ofBits .f32 0xC1000000#32) (FloatOps.roundeven (F := Ideal) (φ := .f32) (Ideal.div z d)))

/-- One entry of the result, from the masked row `z`, the weight row `w`, the output channel's scale `sc`, the
    row's outlier activations `a` and the channel's outlier weights `c`; `dv` makes the divisor from the scale. -/
def outAt (dv : EReal → EReal) (z w : Fin 4096 → EReal) (sc : EReal) (a c : Fin 256 → EReal) : EReal :=
  (∑ k, quantize (z k) (dv (rowScale z)) * w k) * rowScale z * sc + ∑ j, a j * c j

/-- Off zero the guarded divisor is the scale. -/
theorem guarded_of_ne {s : EReal} (h : s ≠ 0) : guarded s = s := by
  unfold guarded
  rw [Ideal.cmpf_def, Ideal.ofBits_zero_f32]
  have : Ideal.cmp .oeq s 0 = 0#1 := by
    unfold Ideal.cmp
    simp [h]
  rw [this]
  exact ValueIdx.select_zero _ _

/-- The guard does not reach the result: where the scale is not 0 the two divisors are one number, and where it
    is 0 the contraction is multiplied by 0. -/
theorem outAt_guarded (z w : Fin 4096 → EReal) (sc : EReal) (a c : Fin 256 → EReal) :
    outAt guarded z w sc a c = outAt id z w sc a c := by
  unfold outAt
  by_cases h : rowScale z = 0
  · rw [h, mul_zero, mul_zero]
  · rw [guarded_of_ne h]; rfl

end Cert.QuantGemm

end
-- ==== Proof.RegionSpec.lean ====
/-
  What each of the two launches computes, as one function of its whole input arrays, and their composition.

  The first launch turns the activations `x` (8192 rows of 4096) and the outlier mask `mk` (one row of 4096, 1 on
  the outlier columns) into the quantized activations and the rows' scales; the second contracts the quantized rows
  with the weight rows, scales the products by the row's and the output channel's scale, and adds the contraction of
  the outlier activations with the outlier weights.  Composed, entry (M, O) of the second launch's result is the
  specification's entry with the guarded divisor.
-/
import proofs.«422718_j68118181314581_3_alg».proof.Proof.Spec

noncomputable section

open scoped BigOperators

namespace Cert.QuantGemm

open Idealize.ShloMosaic Idealize.ShloMosaic.ValueIdx

abbrev A8192x4096 : Shape := ⟨2, ![8192, 4096]⟩
abbrev A4096x4096 : Shape := ⟨2, ![4096, 4096]⟩
abbrev A8192x256 : Shape := ⟨2, ![8192, 256]⟩
abbrev A4096x256 : Shape := ⟨2, ![4096, 256]⟩
abbrev A8192x1 : Shape := ⟨2, ![8192, 1]⟩
abbrev A1x4096 : Shape := ⟨2, ![1, 4096]⟩

/-- Row `M` of the activations with the outlier columns zeroed: entry `k` times one minus the mask's entry. -/
def maskedRow (x : A8192x4096.Idx → EReal) (mk : A1x4096.Idx → EReal) (M : Fin 8192) : Fin 4096 → EReal :=
  fun k => x (ix2 M k) * (Ideal.ofBits .f32 0x3F800000#32 - mk (ix2 (0 : Fin 1) k))

/-- The first launch's first result: every masked entry over its row's guarded scale, rounded and clipped. -/
def quantArr (x : A8192x4096.Idx → EReal) (mk : A1x4096.Idx → EReal) : A8192x4096.Idx → EReal :=
  fun i => quantize (maskedRow x mk (i 0) (i 1)) (guarded (rowScale (maskedRow x mk (i 0))))

/-- The first launch's second result: every row's scale. -/
def scaleArr (x : A8192x4096.Idx → EReal) (mk : A1x4096.Idx → EReal) : A8192x1.Idx → EReal :=
  fun i => rowScale (maskedRow x mk (i 0))

/-- The second launch's result: row `M` of `qx` contracted with row `O` of `w`, times the row's scale, times
    the output channel's scale, plus row `M` of `act` contracted with row `O` of `wc`. -/
def gemmArr (qx : A8192x4096.Idx → EReal) (w : A4096x4096.Idx → EReal) (act : A8192x256.Idx → EReal)
    (wc : A4096x256.Idx → EReal) (sc : A8192x1.Idx → EReal) (scol : A1x4096.Idx → EReal) : A8192x4096.Idx → EReal :=
  fun i => (∑ k : Fin 4096, qx (ix2 (i 0) k) * w (ix2 (i 1) k)) * sc (ix2 (i 0) (0 : Fin 1)) * scol (ix2 (0 : Fin 1) (i 1))
    + ∑ j : Fin 256, act (ix2 (i 0) j) * wc (ix2 (i 1) j)

/-- The two launches composed, at entry (M, O), are the specification's entry with the guarded divisor. -/
theorem gemm_quant_apply (x : A8192x4096.Idx → EReal) (mk : A1x4096.Idx → EReal) (w : A4096x4096.Idx → EReal)
    (act : A8192x256.Idx → EReal) (wc : A4096x256.Idx → EReal) (scol : A1x4096.Idx → EReal) (M : Fin 8192) (O : Fin 4096) :
    gemmArr (quantArr x mk) w act wc (scaleArr x mk) scol (ix2 M O)
      = outAt guarded (maskedRow x mk M) (fun k => w (ix2 O k)) (scol (ix2 (0 : Fin 1) O))
          (fun j => act (ix2 M j)) (fun j => wc (ix2 O j)) := rfl

end Cert.QuantGemm

end
-- ==== Proof.Region0.lean ====
/-
  The first launch's two output arrays, after its sixteen grid points, as functions of the two arrays it reads:
  point t writes rows 512 t … 512 t + 511 of both, each row from the same row of the activations and the whole mask.
-/
import proofs.«422718_j68118181314581_3_alg».proof.Proof.Gen.KernelIdeal.Frame
import proofs.«422718_j68118181314581_3_alg».proof.Proof.RegionSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.QuantGemm

/-! ## The body's arithmetic at one entry of a block -/

/-- Row `p` of a block of activations `x0` with the outlier columns zeroed: entry `k` times one minus the mask's entry. -/
def blockRow (x0 : Vec Ideal S512x4096 .f32) (x1 : Vec Ideal S1x4096 .f32) (p : Fin 512) : Fin 4096 → EReal :=
  fun k => x0 (ix2 p k) * (Ideal.ofBits .f32 0x3F800000#32 - x1 (ix2 (0 : Fin 1) k))

/-- The masked block at `(p, k)`: the one row of the mask is broadcast over the block's rows. -/
theorem masked_apply (x0 : Vec Ideal S512x4096 .f32) (x1 : Vec Ideal S1x4096 .f32) (p : Fin 512) (k : Fin 4096) :
    k0_pay1 (F := Ideal) x0 x1 (ix2 p k) = blockRow x0 x1 p k := by
  unfold k0_pay1
  rw [mulf_apply, shapeCast_self, broadcastTo_1b_ab_apply, subf_apply, shapeCast_self]
  rfl

/-- Over entry `p` of the reduced vector, the block's index with lane `k` put back on the reduced axis is `(p, k)`. -/
theorem lift_row (h : S512x4096.Reduces [1] S512) (p : Fin 512) (k : Fin 4096) :
    h.lift (ix1 p) k = ix2 p k := by
  funext a; apply Fin.ext
  match a with
  | ⟨0, _⟩ => rfl
  | ⟨1, _⟩ => rfl

/-- A vector of `a` entries cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's scale for row `p` of a block: the largest magnitude of the masked row, over seven. -/
theorem scale_apply (x0 : Vec Ideal S512x4096 .f32) (x1 : Vec Ideal S1x4096 .f32) (p : Fin 512) (u : Fin 1) :
    k0_pay2 (F := Ideal) x0 x1 (ix2 p u) = rowScale (blockRow x0 x1 p) := by
  unfold k0_pay2 rowScale
  rw [divf_apply, shapeCast_a_a1_apply]
  refine congrArg₂ Ideal.div ?_ rfl
  refine (Ideal.multiReduction_maximumf_single _ _ _ _ _ (ix1 p)).trans ?_
  unfold absMax
  have hf : (absf (k0_pay1 (F := Ideal) x0 x1) ∘ reduces_S512x4096_S512.lift (ix1 p))
      = fun k : Fin 4096 => FloatOps.absf (F := Ideal) (φ := .f32) (blockRow x0 x1 p k) := by
    refine funext fun (k : Fin 4096) => ?_
    show FloatOps.absf (k0_pay1 (F := Ideal) x0 x1 (reduces_S512x4096_S512.lift (ix1 p) k)) = _
    rw [lift_row reduces_S512x4096_S512 p k, masked_apply]
  exact congrArg (fun f => (Finset.univ : Finset (Fin 4096)).fold max (Ideal.ofBits .f32 0xFF800000#32) f) hf

/-- A rounding to the nearest integer at an index rounds the element. -/
theorem roundeven_apply {s : Shape} {φ : FTy} (a : FVec Ideal s φ) (i : s.Idx) :
    roundeven a i = FloatOps.roundeven (a i) := rfl

/-- The body's quantized entry `(p, k)` of a block: the masked entry over the row's guarded scale, rounded to the
    nearest integer and clipped. -/
theorem quant_apply (x0 : Vec Ideal S512x4096 .f32) (x1 : Vec Ideal S1x4096 .f32) (p : Fin 512) (k : Fin 4096) :
    k0_pay3 (F := Ideal) x0 x1 (ix2 p k)
      = quantize (blockRow x0 x1 p k) (guarded (rowScale (blockRow x0 x1 p))) := by
  unfold k0_pay3 quantize guarded
  rw [truncf_apply, minimumf_apply, maximumf_apply, roundeven_apply, divf_apply, masked_apply,
    broadcastTo_a1_ab_apply, select_apply, cmpf_apply, scale_apply]
  rfl

/-! ## From a block to the arrays: where a block's entry sits -/

/-- A masked row of a block is a masked row of the arrays, when the block's row `p` is the activations' row `r`
    and the block of the mask is the mask. -/
theorem blockRow_eq (X : A8192x4096.Idx → EReal) (M : A1x4096.Idx → EReal) (x0 : Vec Ideal S512x4096 .f32)
    (x1 : Vec Ideal S1x4096 .f32) (r : Fin 8192) (p : Fin 512)
    (h0 : ∀ k : Fin 4096, x0 (ix2 p k) = X (ix2 r k))
    (h1 : ∀ k : Fin 4096, x1 (ix2 (0 : Fin 1) k) = M (ix2 (0 : Fin 1) k)) :
    blockRow x0 x1 p = maskedRow X M r := by
  funext k
  unfold blockRow maskedRow
  rw [h0, h1]

theorem zero_offsets : (![0, 0] : Fin 2 → Nat) = fun _ => 0 := funext fun a => by fin_cases a <;> rfl

/-- The blocks' index maps, decided over the sixteen points: the activations' block and both results' blocks are at
    block row `t`, block column 0; the mask's one block is at (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The array row under row `p` of point `t`'s block: `512 t + p`. -/
def rowOf (t : Fin cfg0.N) (p : Fin 512) : Fin 8192 :=
  ⟨t.val * 512 + p.val, by have := t.isLt; have hN : cfg0.N = 16 := N_0; omega⟩

/-- Entry `(p, k)` of the activations' block at point `t` is entry `(512 t + p, k)` of the activations. -/
theorem act_emb (t : Fin cfg0.N) (p : Fin 512) (k : Fin 4096) :
    ((cfg0.win 0).blk t).view.emb (ix2 p k) = (ix2 (rowOf t p) k : S8192x4096.Idx) := by
  obtain ⟨e0, e1, -, -, -, -, -, -⟩ := index_facts t
  funext a; apply Fin.ext
  match a with
  | ⟨0, _⟩ => show win0_0.index t (0 : Fin 2) * 512 + 1 * p.val = t.val * 512 + p.val; rw [e0]; omega
  | ⟨1, _⟩ => show win0_0.index t (1 : Fin 2) * 4096 + 1 * k.val = k.val; rw [e1]; omega

/-- Entry `(0, k)` of the mask's block at any point is entry `(0, k)` of the mask. -/
theorem mask_emb (t : Fin cfg0.N) (k : Fin 4096) :
    ((cfg0.win 1).blk t).view.emb (ix2 (0 : Fin 1) k) = (ix2 (0 : Fin 1) k : S1x4096.Idx) := by
  obtain ⟨-, -, e0, e1, -, -, -, -⟩ := index_facts t
  funext a; apply Fin.ext
  match a with
  | ⟨0, _⟩ => show win0_1.index t (0 : Fin 2) * 1 + 1 * 0 = 0; rw [e0]
  | ⟨1, _⟩ => show win0_1.index t (1 : Fin 2) * 4096 + 1 * k.val = k.val; rw [e1]; omega

/-- Entry `(p, k)` of the quantized block at point `t` is entry `(512 t + p, k)` of the quantized array. -/
theorem quant_emb (t : Fin cfg0.N) (p : Fin 512) (k : Fin 4096) :
    ((cfg0.win 2).blk t).view.emb (ix2 p k) = (ix2 (rowOf t p) k : S8192x4096.Idx) := by
  obtain ⟨-, -, -, -, e0, e1, -, -⟩ := index_facts t
  funext a; apply Fin.ext
  match a with
  | ⟨0, _⟩ => show win0_2.index t (0 : Fin 2) * 512 + 1 * p.val = t.val * 512 + p.val; rw [e0]; omega
  | ⟨1, _⟩ => show win0_2.index t (1 : Fin 2) * 4096 + 1 * k.val = k.val; rw [e1]; omega

/-- Entry `(p, u)` of the scales' block at point `t` is entry `(512 t + p, u)` of the scales. -/
theorem scale_emb (t : Fin cfg0.N) (p : Fin 512) (u : Fin 1) :
    ((cfg0.win 3).blk t).view.emb (ix2 p u) = (ix2 (rowOf t p) u : S8192x1.Idx) := by
  obtain ⟨-, -, -, -, -, -, e0, e1⟩ := index_facts t
  funext a; apply Fin.ext
  match a with
  | ⟨0, _⟩ => show win0_3.index t (0 : Fin 2) * 512 + 1 * p.val = t.val * 512 + p.val; rw [e0]; omega
  | ⟨1, _⟩ => show win0_3.index t (1 : Fin 2) * 1 + 1 * u.val = u.val; rw [e1]; omega

/-! ## What each point writes back, the cover, and the arrays after the sixteen points -/

variable (V : (c : Dev nD) → (b : Ref sig .tc) → Buf (Elt Ideal) ((c : Thread nD τ).loc b))

/-- Row `p` of point `t`'s blocks, masked, is row `512 t + p` of the arrays, masked. -/
theorem blockRow_point (c : Dev nD) (t : Fin cfg0.N) (p : Fin 512) :
    blockRow (iblk0 V c 0 t) (iblk0 V c 1 t) p = maskedRow (V c main_v0) (V c main_v10) (rowOf t p) :=
  blockRow_eq (V c main_v0) (V c main_v10) (iblk0 V c 0 t) (iblk0 V c 1 t) (rowOf t p) p
    (fun k => congrArg (V c main_v0) (act_emb t p k)) (fun k => congrArg (V c main_v10) (mask_emb t k))

/-- What point `t` writes back to the quantized array is its block of `quantArr` of the two arrays read. -/
theorem quant_flushed (c : Dev nD) (t : Fin cfg0.N) :
    (dat0 V c).flushed 2 t
      = ((cfg0.win 2).blk t).view.read (Elt Ideal) (quantArr (V c main_v0) (V c main_v10)) := by
  show (cfg0.win 2).cut (grid0.coords t) ((dat0 V c).after 2 t) = _
  rw [after0_2]
  unfold out0_2
  rw [View.canon_unit_zero zero_offsets]
  simp only [View.ld_unit_zero (S := S512x4096) zero_offsets, View.ld_unit_zero (S := S1x4096) zero_offsets]
  funext j
  obtain ⟨p, k, rfl⟩ : ∃ (p : Fin 512) (k : Fin 4096), j = ix2 p k := ⟨j 0, j 1, eq_ix2 j⟩
  show k0_pay3 (F := Ideal) (iblk0 V c 0 t) (iblk0 V c 1 t) (ix2 p k)
    = quantArr (V c main_v0) (V c main_v10) (((cfg0.win 2).blk t).view.emb (ix2 p k))
  rw [quant_emb t p k]
  refine (quant_apply (iblk0 V c 0 t) (iblk0 V c 1 t) p k).trans ?_
  rw [blockRow_point V c t p]
  rfl

/-- What point `t` writes back to the scales is its block of `scaleArr` of the two arrays read. -/
theorem scale_flushed (c : Dev nD) (t : Fin cfg0.N) :
    (dat0 V c).flushed 3 t
      = ((cfg0.win 3).blk t).view.read (Elt Ideal) (scaleArr (V c main_v0) (V c main_v10)) := by
  show (cfg0.win 3).cut (grid0.coords t) ((dat0 V c).after 3 t) = _
  rw [after0_3]
  unfold out0_3
  rw [View.canon_unit_zero zero_offsets]
  simp only [View.ld_unit_zero (S := S512x4096) zero_offsets, View.ld_unit_zero (S := S1x4096) zero_offsets]
  funext j
  obtain ⟨p, u, rfl⟩ : ∃ (p : Fin 512) (u : Fin 1), j = ix2 p u := ⟨j 0, j 1, eq_ix2 j⟩
  show k0_pay2 (F := Ideal) (iblk0 V c 0 t) (iblk0 V c 1 t) (ix2 p u)
    = scaleArr (V c main_v0) (V c main_v10) (((cfg0.win 3).blk t).view.emb (ix2 p u))
  rw [scale_emb t p u]
  refine (scale_apply (iblk0 V c 0 t) (iblk0 V c 1 t) p u).trans ?_
  rw [blockRow_point V c t p]
  rfl

/-- An entry of the quantized array is in point `t`'s block iff each coordinate is in the block's range. -/
theorem quant_mem_blk (t : Fin cfg0.N) (i : S8192x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v30_0).slice (win0_2.rect t)).set ↔ _
  rw [View.set_slice_whole, Rect.mem_set_unit]
  exact Iff.rfl

/-- An entry of the scales is in point `t`'s block iff each coordinate is in the block's range. -/
theorem scale_mem_blk (t : Fin cfg0.N) (i : S8192x1.Idx) :
    i ∈ ((cfg0.win 3).blk t).view.set ↔ ∀ a : Fin 2, win0_3.index t a * S512x1.size a ≤ (i a).val
      ∧ (i a).val < win0_3.index t a * S512x1.size a + S512x1.size a := by
  show i ∈ ((View.whole main_v30_1).slice (win0_3.rect t)).set ↔ _
  rw [View.set_slice_whole, Rect.mem_set_unit]
  exact Iff.rfl

/-- The point that covers array row `r`: `r / 512`. -/
def pointOf (r : Fin 8192) : Fin cfg0.N :=
  ⟨r.val / 512, by have := r.isLt; have hN : cfg0.N = 16 := N_0; omega⟩

/-- Every entry of the quantized array is in the block of the point that covers its row. -/
theorem quant_cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  refine ⟨pointOf (i 0), flush0_2 _, ?_⟩
  rw [quant_mem_blk]
  obtain ⟨-, -, -, -, e0, e1, -, -⟩ := index_facts (pointOf (i 0))
  have e0' : win0_2.index (pointOf (i 0)) (0 : Fin 2) = (i 0).val / 512 := e0
  intro a
  match a with
  | ⟨0, _⟩ =>
    show win0_2.index (pointOf (i 0)) (0 : Fin 2) * 512 ≤ (i 0).val
      ∧ (i 0).val < win0_2.index (pointOf (i 0)) (0 : Fin 2) * 512 + 512
    rw [e0']; omega
  | ⟨1, _⟩ =>
    show win0_2.index (pointOf (i 0)) (1 : Fin 2) * 4096 ≤ (i 1).val
      ∧ (i 1).val < win0_2.index (pointOf (i 0)) (1 : Fin 2) * 4096 + 4096
    rw [e1]; omega

/-- Every entry of the scales is in the block of the point that covers its row. -/
theorem scale_cover (i : S8192x1.Idx) :
    ∃ t : Fin cfg0.N, (cfg0.win 3).flush t = true ∧ i ∈ ((cfg0.win 3).blk t).view.set := by
  have hi0 : (i 0).val < 8192 := (i 0).isLt
  have hi1 : (i 1).val < 1 := (i 1).isLt
  refine ⟨pointOf (i 0), flush0_3 _, ?_⟩
  rw [scale_mem_blk]
  obtain ⟨-, -, -, -, -, -, e0, e1⟩ := index_facts (pointOf (i 0))
  have e0' : win0_3.index (pointOf (i 0)) (0 : Fin 2) = (i 0).val / 512 := e0
  intro a
  match a with
  | ⟨0, _⟩ =>
    show win0_3.index (pointOf (i 0)) (0 : Fin 2) * 512 ≤ (i 0).val
      ∧ (i 0).val < win0_3.index (pointOf (i 0)) (0 : Fin 2) * 512 + 512
    rw [e0']; omega
  | ⟨1, _⟩ =>
    show win0_3.index (pointOf (i 0)) (1 : Fin 2) * 1 ≤ (i 1).val
      ∧ (i 1).val < win0_3.index (pointOf (i 0)) (1 : Fin 2) * 1 + 1
    rw [e1]; omega

/-- The quantized activations the first launch leaves. -/
theorem quant_array (c : Dev nD) :
    (dat0 V c).arrAt 2 cfg0.N = quantArr (V c main_v0) (V c main_v10) := by
  exact (dat0 V c).arrAt_eq_of_cover 2 (quantArr (V c main_v0) (V c main_v10)) (fun t _ => quant_flushed V c t) quant_cover

/-- The rows' scales the first launch leaves. -/
theorem scale_array (c : Dev nD) :
    (dat0 V c).arrAt 3 cfg0.N = scaleArr (V c main_v0) (V c main_v10) := by
  exact (dat0 V c).arrAt_eq_of_cover 3 (scaleArr (V c main_v0) (V c main_v10)) (fun t _ => scale_flushed V c t) scale_cover

end Cert.KernelIdeal.Region0

end
-- ==== Proof.Region1.lean ====
/-
  The second launch's output array, after its 8 × 8 grid points, as a function of the six arrays it reads:
  point (i, j) writes rows 1024 i … and columns 512 j … from the same rows of the quantized activations, the outlier
  activations and the scales, and the same rows (output channels) of the two weight arrays and columns of the channel scales.
-/
import proofs.«422718_j68118181314581_3_alg».proof.Proof.Gen.KernelIdeal.Frame
import proofs.«422718_j68118181314581_3_alg».proof.Proof.RegionSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.QuantGemm

variable (V : (c : Dev nD) → (b : Ref sig .tc) → Buf (Elt Ideal) ((c : Thread nD τ).loc b))

/-! ## The two contractions

Each product contracts axis 1 of BOTH operands: entry (p, q) of the result sums, over k, the left operand's entry (p, k)
times the right operand's entry (q, k). The long one (4096 terms) takes rows of the quantized activations against rows
of the weights, the short one (256 terms) rows of the outlier activations against rows of the outlier weights. First,
per product, where each operand is read: on its axis 0 at the result's row (left) or column (right), on its axis 1 at
the contraction index. -/

theorem lhs_long_0 (i : S1024x512.Idx) (q : dot_S1024x4096_S512x4096_S1024x512_1_1_0_0_n_n.contr.Idx) :
    (dot_S1024x4096_S512x4096_S1024x512_1_1_0_0_n_n.lhsIdx i q 0).val = (i 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
theorem lhs_long_1 (i : S1024x512.Idx) (q : dot_S1024x4096_S512x4096_S1024x512_1_1_0_0_n_n.contr.Idx) :
    (dot_S1024x4096_S512x4096_S1024x512_1_1_0_0_n_n.lhsIdx i q 1).val = (q ⟨0, by decide⟩).val :=
  dot_S1024x4096_S512x4096_S1024x512_1_1_0_0_n_n.lhsIdx_val_of_single rfl i q
theorem rhs_long_0 (i : S1024x512.Idx) (q : dot_S1024x4096_S512x4096_S1024x512_1_1_0_0_n_n.contr.Idx) :
    (dot_S1024x4096_S512x4096_S1024x512_1_1_0_0_n_n.rhsIdx i q 0).val = (i 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
theorem rhs_long_1 (i : S1024x512.Idx) (q : dot_S1024x4096_S512x4096_S1024x512_1_1_0_0_n_n.contr.Idx) :
    (dot_S1024x4096_S512x4096_S1024x512_1_1_0_0_n_n.rhsIdx i q 1).val = (q ⟨0, by decide⟩).val :=
  dot_S1024x4096_S512x4096_S1024x512_1_1_0_0_n_n.rhsIdx_val_of_single rfl i q

theorem lhs_short_0 (i : S1024x512.Idx) (q : dot_S1024x256_S512x256_S1024x512_1_1_0_0_n_n.contr.Idx) :
    (dot_S1024x256_S512x256_S1024x512_1_1_0_0_n_n.lhsIdx i q 0).val = (i 0).val := by
  unfold DotDims.lhsIdx
  rw [dif_neg (show ¬(0 : Fin S1024x256.rank) ∈ dot_S1024x256_S512x256_S1024x512_1_1_0_0_n_n.lhsBatch by decide), dif_pos (show (0 : Fin S1024x256.rank) ∈ dot_S1024x256_S512x256_S1024x512_1_1_0_0_n_n.lhsNonContracting by decide)]
  rfl
theorem lhs_short_1 (i : S1024x512.Idx) (q : dot_S1024x256_S512x256_S1024x512_1_1_0_0_n_n.contr.Idx) :
    (dot_S1024x256_S512x256_S1024x512_1_1_0_0_n_n.lhsIdx i q 1).val = (q ⟨0, by decide⟩).val :=
  dot_S1024x256_S512x256_S1024x512_1_1_0_0_n_n.lhsIdx_val_of_single rfl i q
theorem rhs_short_0 (i : S1024x512.Idx) (q : dot_S1024x256_S512x256_S1024x512_1_1_0_0_n_n.contr.Idx) :
    (dot_S1024x256_S512x256_S1024x512_1_1_0_0_n_n.rhsIdx i q 0).val = (i 1).val := by
  unfold DotDims.rhsIdx
  rw [dif_neg (show ¬(0 : Fin S512x256.rank) ∈ dot_S1024x256_S512x256_S1024x512_1_1_0_0_n_n.rhsBatch by decide), dif_pos (show (0 : Fin S512x256.rank) ∈ dot_S1024x256_S512x256_S1024x512_1_1_0_0_n_n.rhsNonContracting by decide)]
  rfl
theorem rhs_short_1 (i : S1024x512.Idx) (q : dot_S1024x256_S512x256_S1024x512_1_1_0_0_n_n.contr.Idx) :
    (dot_S1024x256_S512x256_S1024x512_1_1_0_0_n_n.rhsIdx i q 1).val = (q ⟨0, by decide⟩).val :=
  dot_S1024x256_S512x256_S1024x512_1_1_0_0_n_n.rhsIdx_val_of_single rfl i q

/-- The long product into the zero accumulator, at entry (p, q): the sum over k of a (p, k) · b (q, k). -/
theorem long_apply (a : FVec Ideal S1024x4096 .bf16) (b : FVec Ideal S512x4096 .bf16) (p : Fin 1024) (q : Fin 512) :
    FloatOps.matmul dot_S1024x4096_S512x4096_S1024x512_1_1_0_0_n_n none a b (constant (F := Ideal) S1024x512 .f32 0x00000000#32) (ix2 p q)
      = ∑ k : Fin 4096, a (ix2 p k) * b (ix2 q k) := by
  rw [Ideal.matmul_constant_zero_apply, ← Equiv.sum_comp (ValueIdx.contrEquiv1 dot_S1024x4096_S512x4096_S1024x512_1_1_0_0_n_n 4096 rfl rfl).symm]
  refine Finset.sum_congr rfl fun k _ => ?_
  have hk := ValueIdx.contrEquiv1_symm_val dot_S1024x4096_S512x4096_S1024x512_1_1_0_0_n_n 4096 rfl rfl k
  have el : dot_S1024x4096_S512x4096_S1024x512_1_1_0_0_n_n.lhsIdx (ix2 p q) ((ValueIdx.contrEquiv1 dot_S1024x4096_S512x4096_S1024x512_1_1_0_0_n_n 4096 rfl rfl).symm k) = ix2 p k := funext fun d => Fin.ext (by
    match d with
    | ⟨0, _⟩ => exact lhs_long_0 _ _
    | ⟨1, _⟩ => exact (lhs_long_1 _ _).trans hk)
  have er : dot_S1024x4096_S512x4096_S1024x512_1_1_0_0_n_n.rhsIdx (ix2 p q) ((ValueIdx.contrEquiv1 dot_S1024x4096_S512x4096_S1024x512_1_1_0_0_n_n 4096 rfl rfl).symm k) = ix2 q k := funext fun d => Fin.ext (by
    match d with
    | ⟨0, _⟩ => exact rhs_long_0 _ _
    | ⟨1, _⟩ => exact (rhs_long_1 _ _).trans hk)
  rw [el, er]

/-- The short product into the zero accumulator, at entry (p, q): the sum over j of a (p, j) · b (q, j). -/
theorem short_apply (a : FVec Ideal S1024x256 .bf16) (b : FVec Ideal S512x256 .bf16) (p : Fin 1024) (q : Fin 512) :
    FloatOps.matmul dot_S1024x256_S512x256_S1024x512_1_1_0_0_n_n none a b (constant (F := Ideal) S1024x512 .f32 0x00000000#32) (ix2 p q)
      = ∑ j : Fin 256, a (ix2 p j) * b (ix2 q j) := by
  rw [Ideal.matmul_constant_zero_apply, ← Equiv.sum_comp (ValueIdx.contrEquiv1 dot_S1024x256_S512x256_S1024x512_1_1_0_0_n_n 256 rfl rfl).symm]
  refine Finset.sum_congr rfl fun k _ => ?_
  have hk := ValueIdx.contrEquiv1_symm_val dot_S1024x256_S512x256_S1024x512_1_1_0_0_n_n 256 rfl rfl k
  have el : dot_S1024x256_S512x256_S1024x512_1_1_0_0_n_n.lhsIdx (ix2 p q) ((ValueIdx.contrEquiv1 dot_S1024x256_S512x256_S1024x512_1_1_0_0_n_n 256 rfl rfl).symm k) = ix2 p k := funext fun d => Fin.ext (by
    match d with
    | ⟨0, _⟩ => exact lhs_short_0 _ _
    | ⟨1, _⟩ => exact (lhs_short_1 _ _).trans hk)
  have er : dot_S1024x256_S512x256_S1024x512_1_1_0_0_n_n.rhsIdx (ix2 p q) ((ValueIdx.contrEquiv1 dot_S1024x256_S512x256_S1024x512_1_1_0_0_n_n 256 rfl rfl).symm k) = ix2 q k := funext fun d => Fin.ext (by
    match d with
    | ⟨0, _⟩ => exact rhs_short_0 _ _
    | ⟨1, _⟩ => exact (rhs_short_1 _ _).trans hk)
  rw [el, er]

/-! ## One entry of a block -/

/-- The row scale, one column wide, spread over the 512 columns: entry (p, q) is the scale of row p. -/
theorem rowScale_spread (s : FVec Ideal S1024x1 .f32) (p : Fin 1024) (q : Fin 512) :
    broadcastTo S1024x512 s broadcasts_S1024x1_S1024x512 (ix2 p q) = s (ix2 p (0 : Fin 1)) :=
  broadcastTo_apply s broadcasts_S1024x1_S1024x512 (ix2 p q) (ix2 p (0 : Fin 1)) (fun d => by
    match d with
    | ⟨0, _⟩ => rfl
    | ⟨1, _⟩ => rfl)

/-- The channel scale, one row high, spread over the 1024 rows: entry (p, q) is the scale of channel q. -/
theorem chanScale_spread (s : FVec Ideal S1x512 .f32) (p : Fin 1024) (q : Fin 512) :
    broadcastTo S1024x512 s broadcasts_S1x512_S1024x512 (ix2 p q) = s (ix2 (0 : Fin 1) q) :=
  broadcastTo_apply s broadcasts_S1x512_S1024x512 (ix2 p q) (ix2 (0 : Fin 1) q) (fun d => by
    match d with
    | ⟨0, _⟩ => rfl
    | ⟨1, _⟩ => rfl)

/-- What the body stores at entry (p, q) of its block: the long contraction of row p of the quantized block with row q
    of the weight block, times row p's scale, times channel q's scale, plus the short contraction of the outlier rows. -/
theorem block_entry (x0 : Vec Ideal S1024x4096 .bf16) (x1 : Vec Ideal S512x4096 .bf16) (x2 : Vec Ideal S1024x256 .bf16)
    (x3 : Vec Ideal S512x256 .bf16) (x4 : Vec Ideal S1024x1 .f32) (x5 : Vec Ideal S1x512 .f32) (p : Fin 1024) (q : Fin 512) :
    k1_pay1 (F := Ideal) x0 x1 x2 x3 x4 x5 (ix2 p q)
      = (∑ k : Fin 4096, x0 (ix2 p k) * x1 (ix2 q k)) * x4 (ix2 p (0 : Fin 1)) * x5 (ix2 (0 : Fin 1) q)
        + ∑ j : Fin 256, x2 (ix2 p j) * x3 (ix2 q j) := by
  unfold k1_pay1
  simp only [shapeCast_self]
  rw [addf_apply, mulf_apply, mulf_apply]
  refine congrArg₂ (· + ·) (congrArg₂ (· * ·) (congrArg₂ (· * ·) (long_apply x0 x1 p q) (rowScale_spread x4 p q)) (chanScale_spread x5 p q)) (short_apply x2 x3 p q)

/-- An entry of a block is the array's entry (M, O) as soon as the six blocks hold, on row p and row q, what the
    six arrays hold on row M and row O. -/
theorem block_entry_eq_gemm (qx : A8192x4096.Idx → EReal) (w : A4096x4096.Idx → EReal) (act : A8192x256.Idx → EReal)
    (wc : A4096x256.Idx → EReal) (sc : A8192x1.Idx → EReal) (scol : A1x4096.Idx → EReal)
    (x0 : Vec Ideal S1024x4096 .bf16) (x1 : Vec Ideal S512x4096 .bf16) (x2 : Vec Ideal S1024x256 .bf16)
    (x3 : Vec Ideal S512x256 .bf16) (x4 : Vec Ideal S1024x1 .f32) (x5 : Vec Ideal S1x512 .f32)
    (p : Fin 1024) (q : Fin 512) (M : Fin 8192) (O : Fin 4096)
    (h0 : ∀ k : Fin 4096, x0 (ix2 p k) = qx (ix2 M k))
    (h1 : ∀ k : Fin 4096, x1 (ix2 q k) = w (ix2 O k))
    (h2 : ∀ j : Fin 256, x2 (ix2 p j) = act (ix2 M j))
    (h3 : ∀ j : Fin 256, x3 (ix2 q j) = wc (ix2 O j))
    (h4 : x4 (ix2 p (0 : Fin 1)) = sc (ix2 M (0 : Fin 1)))
    (h5 : x5 (ix2 (0 : Fin 1) q) = scol (ix2 (0 : Fin 1) O)) :
    k1_pay1 (F := Ideal) x0 x1 x2 x3 x4 x5 (ix2 p q) = gemmArr qx w act wc sc scol (ix2 M O) := by
  rw [block_entry, h4, h5]
  simp only [h0, h1, h2, h3]
  rfl

/-! ## The grid: which block of each array a point reads, and which it writes -/

theorem zero_offsets : (![0, 0] : Fin 2 → Nat) = fun _ => 0 := funext fun a => by fin_cases a <;> rfl

/-- The seven index maps, decided over the 64 points: the row blocks of the quantized activations, the outlier
    activations and the row scales are the output's row block; the row blocks of the two weight arrays and the column
    block of the channel scales are the output's column block; every other block index is 0; the output's block indices
    are below 8. -/
theorem index_facts : ∀ t : Fin cfg1.N,
    win1_0.index t (0 : Fin 2) = win1_6.index t (0 : Fin 2) ∧ win1_0.index t (1 : Fin 2) = 0
    ∧ win1_1.index t (0 : Fin 2) = win1_6.index t (1 : Fin 2) ∧ win1_1.index t (1 : Fin 2) = 0
    ∧ win1_2.index t (0 : Fin 2) = win1_6.index t (0 : Fin 2) ∧ win1_2.index t (1 : Fin 2) = 0
    ∧ win1_3.index t (0 : Fin 2) = win1_6.index t (1 : Fin 2) ∧ win1_3.index t (1 : Fin 2) = 0
    ∧ win1_4.index t (0 : Fin 2) = win1_6.index t (0 : Fin 2) ∧ win1_4.index t (1 : Fin 2) = 0
    ∧ win1_5.index t (0 : Fin 2) = 0 ∧ win1_5.index t (1 : Fin 2) = win1_6.index t (1 : Fin 2)
    ∧ win1_6.index t (0 : Fin 2) ≤ 7 ∧ win1_6.index t (1 : Fin 2) ≤ 7 :=
  (by decide +kernel : ∀ t : Fin grid1.N, _)

/-- Every pair of block indices is some point's. -/
theorem index_onto : ∀ (b0 : Fin 8) (b1 : Fin 8), ∃ t : Fin cfg1.N, win1_6.index t = ![b0.val, b1.val] :=
  (by decide +kernel : ∀ (b0 : Fin 8) (b1 : Fin 8), ∃ t : Fin grid1.N, win1_6.index t = ![b0.val, b1.val])

/-- What a point writes back is its block of the result array. -/
theorem written_block (c : Dev nD) (t : Fin cfg1.N) :
    (dat1 V c).flushed 6 t = ((cfg1.win 6).blk t).view.read (Elt Ideal)
      (gemmArr (V c main_v30_0) (V c main_v26) (V c main_v28) (V c main_v29) (V c main_v30_1) (V c main_arg2)) := by
  show (cfg1.win 6).cut (grid1.coords t) ((dat1 V c).after 6 t) = _
  rw [after1_6]
  unfold out1_6
  rw [View.canon_unit_zero zero_offsets]
  simp only [View.ld_unit_zero (S := S1024x4096) zero_offsets, View.ld_unit_zero (S := S512x4096) zero_offsets,
    View.ld_unit_zero (S := S1024x256) zero_offsets, View.ld_unit_zero (S := S512x256) zero_offsets,
    View.ld_unit_zero (S := S1024x1) zero_offsets, View.ld_unit_zero (S := S1x512) zero_offsets]
  obtain ⟨e00, e01, e10, e11, e20, e21, e30, e31, e40, e41, e50, e51, b0, b1⟩ := index_facts t
  refine funext fun (j : S1024x512.Idx) => ?_
  obtain ⟨p, q, rfl⟩ : ∃ (p : Fin 1024) (q : Fin 512), j = ix2 p q := ⟨j 0, j 1, eq_ix2 j⟩
  have hp : p.val < 1024 := p.isLt
  have hq : q.val < 512 := q.isLt
  show k1_pay1 (F := Ideal) (iblk1 V c 0 t) (iblk1 V c 1 t) (iblk1 V c 2 t) (iblk1 V c 3 t) (iblk1 V c 4 t) (iblk1 V c 5 t) (ix2 p q)
    = gemmArr (V c main_v30_0) (V c main_v26) (V c main_v28) (V c main_v29) (V c main_v30_1) (V c main_arg2)
        (((cfg1.win 6).blk t).view.emb (ix2 p q))
  have hout : ((cfg1.win 6).blk t).view.emb (ix2 p q)
      = ix2 (⟨win1_6.index t (0 : Fin 2) * 1024 + p.val, by omega⟩ : Fin 8192) (⟨win1_6.index t (1 : Fin 2) * 512 + q.val, by omega⟩ : Fin 4096) := by
    funext a; apply Fin.ext
    match a with
    | ⟨0, _⟩ => show win1_6.index t (0 : Fin 2) * 1024 + 1 * p.val = win1_6.index t (0 : Fin 2) * 1024 + p.val; omega
    | ⟨1, _⟩ => show win1_6.index t (1 : Fin 2) * 512 + 1 * q.val = win1_6.index t (1 : Fin 2) * 512 + q.val; omega
  rw [hout]
  refine block_entry_eq_gemm (V c main_v30_0) (V c main_v26) (V c main_v28) (V c main_v29) (V c main_v30_1) (V c main_arg2)
    (iblk1 V c 0 t) (iblk1 V c 1 t) (iblk1 V c 2 t) (iblk1 V c 3 t) (iblk1 V c 4 t) (iblk1 V c 5 t) p q
    (⟨win1_6.index t (0 : Fin 2) * 1024 + p.val, by omega⟩ : Fin 8192) (⟨win1_6.index t (1 : Fin 2) * 512 + q.val, by omega⟩ : Fin 4096)
    ?_ ?_ ?_ ?_ ?_ ?_
  · -- row p of the quantized block is row M of the quantized activations
    intro k
    show V c main_v30_0 (((cfg1.win 0).blk t).view.emb (ix2 p k)) = _
    refine congrArg (V c main_v30_0) (funext fun a => Fin.ext ?_)
    match a with
    | ⟨0, _⟩ => show win1_0.index t (0 : Fin 2) * 1024 + 1 * p.val = win1_6.index t (0 : Fin 2) * 1024 + p.val; omega
    | ⟨1, _⟩ => show win1_0.index t (1 : Fin 2) * 4096 + 1 * k.val = k.val; omega
  · -- row q of the weight block is row O of the weights
    intro k
    show V c main_v26 (((cfg1.win 1).blk t).view.emb (ix2 q k)) = _
    refine congrArg (V c main_v26) (funext fun a => Fin.ext ?_)
    match a with
    | ⟨0, _⟩ => show win1_1.index t (0 : Fin 2) * 512 + 1 * q.val = win1_6.index t (1 : Fin 2) * 512 + q.val; omega
    | ⟨1, _⟩ => show win1_1.index t (1 : Fin 2) * 4096 + 1 * k.val = k.val; omega
  · -- row p of the outlier block is row M of the outlier activations
    intro j
    show V c main_v28 (((cfg1.win 2).blk t).view.emb (ix2 p j)) = _
    refine congrArg (V c main_v28) (funext fun a => Fin.ext ?_)
    match a with
    | ⟨0, _⟩ => show win1_2.index t (0 : Fin 2) * 1024 + 1 * p.val = win1_6.index t (0 : Fin 2) * 1024 + p.val; omega
    | ⟨1, _⟩ => show win1_2.index t (1 : Fin 2) * 256 + 1 * j.val = j.val; omega
  · -- row q of the outlier weight block is row O of the outlier weights
    intro j
    show V c main_v29 (((cfg1.win 3).blk t).view.emb (ix2 q j)) = _
    refine congrArg (V c main_v29) (funext fun a => Fin.ext ?_)
    match a with
    | ⟨0, _⟩ => show win1_3.index t (0 : Fin 2) * 512 + 1 * q.val = win1_6.index t (1 : Fin 2) * 512 + q.val; omega
    | ⟨1, _⟩ => show win1_3.index t (1 : Fin 2) * 256 + 1 * j.val = j.val; omega
  · -- the scale of row p of the block is the scale of row M
    show V c main_v30_1 (((cfg1.win 4).blk t).view.emb (ix2 p (0 : Fin 1))) = _
    refine congrArg (V c main_v30_1) (funext fun a => Fin.ext ?_)
    match a with
    | ⟨0, _⟩ => show win1_4.index t (0 : Fin 2) * 1024 + 1 * p.val = win1_6.index t (0 : Fin 2) * 1024 + p.val; omega
    | ⟨1, _⟩ => show win1_4.index t (1 : Fin 2) * 1 + 1 * 0 = 0; omega
  · -- the scale of channel q of the block is the scale of channel O
    show V c main_arg2 (((cfg1.win 5).blk t).view.emb (ix2 (0 : Fin 1) q)) = _
    refine congrArg (V c main_arg2) (funext fun a => Fin.ext ?_)
    match a with
    | ⟨0, _⟩ => show win1_5.index t (0 : Fin 2) * 1 + 1 * 0 = 0; omega
    | ⟨1, _⟩ => show win1_5.index t (1 : Fin 2) * 512 + 1 * q.val = win1_6.index t (1 : Fin 2) * 512 + q.val; omega

/-! ## The blocks tile the array -/

/-- An entry of the array is in a point's block iff, on each axis, it lies in the block's range. -/
theorem mem_block (t : Fin cfg1.N) (i : S8192x4096.Idx) :
    i ∈ ((cfg1.win 6).blk t).view.set
      ↔ ∀ a : Fin 2, win1_6.index t a * S1024x512.size a ≤ (i a).val ∧ (i a).val < win1_6.index t a * S1024x512.size a + S1024x512.size a := by
  show i ∈ ((View.whole main_v31).slice (win1_6.rect t)).set ↔ _
  rw [View.set_slice_whole, Rect.mem_set_unit]
  exact Iff.rfl

/-- Entry (r, s) lies in the block of the point with row block r / 1024 and column block s / 512, which writes back. -/
theorem covered (i : S8192x4096.Idx) :
    ∃ t : Fin cfg1.N, (cfg1.win 6).flush t = true ∧ i ∈ ((cfg1.win 6).blk t).view.set := by
  have hi0 : (i 0).val < 8192 := (i 0).isLt
  have hi1 : (i 1).val < 4096 := (i 1).isLt
  obtain ⟨t, ht⟩ := index_onto ⟨(i 0).val / 1024, by omega⟩ ⟨(i 1).val / 512, by omega⟩
  have q0 : win1_6.index t (0 : Fin 2) = (i 0).val / 1024 := congrFun ht 0
  have q1 : win1_6.index t (1 : Fin 2) = (i 1).val / 512 := congrFun ht 1
  refine ⟨t, flush1_6 t, ?_⟩
  rw [mem_block]
  intro a
  match a with
  | ⟨0, _⟩ => show win1_6.index t (0 : Fin 2) * 1024 ≤ (i 0).val ∧ (i 0).val < win1_6.index t (0 : Fin 2) * 1024 + 1024; omega
  | ⟨1, _⟩ => show win1_6.index t (1 : Fin 2) * 512 ≤ (i 1).val ∧ (i 1).val < win1_6.index t (1 : Fin 2) * 512 + 512; omega

/-- The result array the second launch leaves. -/
theorem gemm_array (c : Dev nD) :
    (dat1 V c).arrAt 6 cfg1.N
      = gemmArr (V c main_v30_0) (V c main_v26) (V c main_v28) (V c main_v29) (V c main_v30_1) (V c main_arg2) :=
  (dat1 V c).arrAt_eq_of_cover 6
    (gemmArr (V c main_v30_0) (V c main_v26) (V c main_v28) (V c main_v29) (V c main_v30_1) (V c main_arg2))
    (fun t _ => written_block V c t) covered

end Cert.KernelIdeal.Region1

end
-- ==== Proof.RefValue.lean ====
/-
  The reference's result before its last reshape, read at entry (M, O), is the specification's entry with the scale
  itself as the divisor, of: row M of the masked activations, row O of the unpacked weights, the channel's scale, row M
  of the gathered outlier activations and row O of the outlier weights.
-/
import proofs.«422718_j68118181314581_3_alg».proof.Proof.Gen.ReferenceIdeal.Run
import proofs.«422718_j68118181314581_3_alg».proof.Proof.Gen.ReferenceIdeal.Read
import proofs.«422718_j68118181314581_3_alg».proof.Proof.Spec
import Idealize.ShloMosaic.PureOps.Reduce

noncomputable section

namespace Cert.ReferenceIdeal.RefValue

open Idealize.ShloMosaic Idealize.ShloMosaic.ValueIdx
open Cert.ReferenceIdeal Cert.ReferenceIdeal.Gen Cert.ReferenceIdeal.Read Cert.QuantGemm

/-! ## Index equations: the composed index functions of the stages, at coordinates -/

theorem lidx48_eq (M : Fin 8192) (O k : Fin 4096) : lidx_main_v48 (ix2 M O) k = ix2 M k :=
  funext fun a => Fin.ext (by match a with | ⟨0, _⟩ => rfl | ⟨1, _⟩ => rfl)

theorem ridx48_eq (M : Fin 8192) (O k : Fin 4096) : ridx_main_v48 (ix2 M O) k = ix2 k O :=
  funext fun a => Fin.ext (by match a with | ⟨0, _⟩ => rfl | ⟨1, _⟩ => rfl)

theorem idx47_eq (k O : Fin 4096) : idx_main_v47 (ix2 k O) = ix2 O k :=
  funext fun a => Fin.ext (by match a with | ⟨0, _⟩ => rfl | ⟨1, _⟩ => rfl)

theorem lidx50_eq (M : Fin 8192) (O : Fin 4096) (j : Fin 256) : lidx_main_v50 (ix2 M O) j = ix2 M j :=
  funext fun a => Fin.ext (by match a with | ⟨0, _⟩ => rfl | ⟨1, _⟩ => rfl)

theorem ridx50_eq (M : Fin 8192) (O : Fin 4096) (j : Fin 256) : ridx_main_v50 (ix2 M O) j = ix2 j O :=
  funext fun a => Fin.ext (by match a with | ⟨0, _⟩ => rfl | ⟨1, _⟩ => rfl)

theorem idx49_eq (j : Fin 256) (O : Fin 4096) : idx_main_v49 (ix2 j O) = ix2 O j :=
  funext fun a => Fin.ext (by match a with | ⟨0, _⟩ => rfl | ⟨1, _⟩ => rfl)

theorem idx51_eq (M : Fin 8192) (O : Fin 4096) : idx_main_v51 (ix2 M O) = ix2 M (0 : Fin 1) :=
  funext fun a => Fin.ext (by match a with | ⟨0, _⟩ => rfl | ⟨1, _⟩ => rfl)

theorem idx27_eq (M : Fin 8192) (k : Fin 4096) : idx_main_v27 (ix2 M k) = ix2 M (0 : Fin 1) :=
  funext fun a => Fin.ext (by match a with | ⟨0, _⟩ => rfl | ⟨1, _⟩ => rfl)

theorem idx53_eq (M : Fin 8192) (O : Fin 4096) : idx_main_v53 (ix2 M O) = ix2 (0 : Fin 1) O :=
  funext fun a => Fin.ext (by match a with | ⟨0, _⟩ => rfl | ⟨1, _⟩ => rfl)

theorem idx24_eq (M : Fin 8192) : idx_main_v24 (ix2 M (0 : Fin 1)) = ix1 M :=
  funext fun a => Fin.ext (by match a with | ⟨0, _⟩ => rfl)

/-! ## The row's maximum -/

/-- Row `M` of the result of dropping axis 1, with `k` put back on that axis, is entry (M, k). -/
theorem lift_row (h : S8192x4096.Reduces [1] S8192) (M : Fin 8192) (k : Fin 4096) : h.lift (ix1 M) k = ix2 M k :=
  funext fun a => Fin.ext (by match a with | ⟨0, _⟩ => rfl | ⟨1, _⟩ => rfl)

/-- The maximum over axis 1, from minus infinity, of the magnitudes, at row `M`, is the largest magnitude of the
    masked row. -/
theorem rowMax_at (x0 : (⟨S4x2048x4096, .f32⟩ : BufTy).Contents (Elt Ideal)) (x4 : (⟨S256, .i32⟩ : BufTy).Contents (Elt Ideal)) (M : Fin 8192) :
    val_main_v23 (F := Ideal) x0 x4 (ix1 M) = absMax (fun k => val_main_v21 (F := Ideal) x0 x4 (ix2 M k)) := by
  have h : S8192x4096.Reduces [1] S8192 := by decide
  unfold val_main_v23
  rw [Host.reduce_eq_fold_single FloatOps.maximumf _ _ reducesTo_S8192x4096_S8192_d1 h h_S_]
  show Finset.fold max (Ideal.ofBits .f32 0xFF800000#32)
      (fun k : Fin 4096 => val_main_v22 (F := Ideal) x0 x4 (h.lift (ix1 M) k)) Finset.univ = _
  simp only [lift_row h M]
  rfl

/-- The row's scale stage at (M, 0) is the scale of the masked row. -/
theorem scale_at (x0 : (⟨S4x2048x4096, .f32⟩ : BufTy).Contents (Elt Ideal)) (x4 : (⟨S256, .i32⟩ : BufTy).Contents (Elt Ideal)) (M : Fin 8192) :
    val_main_v26 (F := Ideal) x0 x4 (ix2 M (0 : Fin 1)) = rowScale (fun k => val_main_v21 (F := Ideal) x0 x4 (ix2 M k)) := by
  rw [val_main_v26_apply, val_main_v24_apply, idx24_eq, rowMax_at, val_main_v25_apply, val_main_cst_6_apply]
  rfl

/-- The clipped stage at (M, k) is the quantized masked entry, the divisor being the row's scale. -/
theorem quant_at (x0 : (⟨S4x2048x4096, .f32⟩ : BufTy).Contents (Elt Ideal)) (x4 : (⟨S256, .i32⟩ : BufTy).Contents (Elt Ideal)) (M : Fin 8192) (k : Fin 4096) :
    val_main_v30 (F := Ideal) x0 x4 (ix2 M k)
      = quantize (val_main_v21 (F := Ideal) x0 x4 (ix2 M k)) (rowScale (fun k => val_main_v21 (F := Ideal) x0 x4 (ix2 M k))) := by
  rw [val_main_v30_apply, val_main_call1_v4_apply, val_main_call1_v3_apply, val_main_cst_8_apply, val_main_call1_v2_apply,
    val_main_call1_v1_apply, val_main_call1_v0_apply, val_main_cst_7_apply, val_main_v29_apply, val_main_v28_apply,
    val_main_v27_apply, idx27_eq, scale_at]
  rfl

/-- The reference's product-scale-add stage at entry (M, O). -/
theorem result_at (x0 : (⟨S4x2048x4096, .f32⟩ : BufTy).Contents (Elt Ideal)) (x1 : (⟨S4096x2048, .i32⟩ : BufTy).Contents (Elt Ideal))
    (x2 : (⟨S1x4096, .f32⟩ : BufTy).Contents (Elt Ideal)) (x3 : (⟨S4096x256, .f32⟩ : BufTy).Contents (Elt Ideal))
    (x4 : (⟨S256, .i32⟩ : BufTy).Contents (Elt Ideal)) (M : Fin 8192) (O : Fin 4096) :
    val_main_v55 (F := Ideal) x0 x1 x2 x3 x4 (ix2 M O)
      = outAt id (fun k => val_main_v21 (F := Ideal) x0 x4 (ix2 M k)) (fun k => val_main_v46 (F := Ideal) x1 (ix2 O k))
          (x2 (ix2 (0 : Fin 1) O)) (fun j => val_main_v7 (F := Ideal) x0 x4 (ix2 M j)) (fun j => x3 (ix2 O j)) := by
  rw [val_main_v55_apply, val_main_v54_apply, val_main_v52_apply, val_main_v48_apply, val_main_v50_apply, val_main_v51_apply,
    val_main_v53_apply, idx51_eq, idx53_eq, scale_at]
  simp only [lidx48_eq, ridx48_eq, lidx50_eq, ridx50_eq, val_main_v47_apply, val_main_v49_apply, idx47_eq, idx49_eq, quant_at]
  rfl

end Cert.ReferenceIdeal.RefValue

end
-- ==== Proof.HostK.lean ====
/-
  What the first launch finds in the buffers it and the second launch read, as the host operations before the
  launches leave them, named by the reference's own stages of the same argument arrays: the activations reshaped to
  rows; the outlier mask, a scatter of ones at the wrapped indices, as one row; the weights unpacked from their
  nibbles to signed integers and converted; the outlier activations, a gather of columns at the wrapped indices kept
  where every index passes the range test and a fixed pattern elsewhere; the outlier weights and the channel scales,
  which are the arguments themselves (a change of float format is the identity on the extended reals).
-/
import proofs.«422718_j68118181314581_3_alg».proof.Proof.Gen.KernelIdeal.Frame
import proofs.«422718_j68118181314581_3_alg».proof.Proof.Gen.ReferenceIdeal.Read
import proofs.«422718_j68118181314581_3_alg».proof.Proof.RegionSpec
import proofs.«422718_j68118181314581_3_alg».proof.Proof.Words
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.HostK

open Idealize.ShloMosaic Idealize.ShloMosaic.TcCoe Idealize.ShloMosaic.ValueIdx Idealize.SL.Sem Idealize.ShloMosaic.StableHlo
open Cert.KernelIdeal Cert.KernelIdeal.Gen Cert.QuantGemm

variable (m : (ℓ : Loc nD τ sig) → Buf (Elt Ideal) ℓ) (ρ : Dev nD → PrngReg)

/-- The contents the first launch is entered from, as the five stretches of host operations applied in turn. -/
theorem V5_eq (c : Dev nD) (b : Ref sig .tc) : V5 m ρ c b
    = StableHlo.after hostOps0_4 (StableHlo.after hostOps0_3 (StableHlo.after hostOps0_2 (StableHlo.after hostOps0_1
        (StableHlo.after hostOps0 (W0 m ρ c))))) (Proc.devRef .tc b) := rfl

/-- The activations as rows. -/
theorem entry_x (c : Dev nD) : V5 m ρ c main_v0
    = Cert.ReferenceIdeal.Read.val_main_v0 (F := Ideal) (m ((c : Thread nD τ).loc main_arg0)) := by
  rw [V5_eq]; after_results; rfl

set_option maxHeartbeats 4000000 in
/-- The outlier mask as one row. -/
theorem entry_mask (c : Dev nD) : V5 m ρ c main_v10
    = shapeCast S1x4096 (Cert.ReferenceIdeal.Read.val_main_v16 (F := Ideal) (m ((c : Thread nD τ).loc main_arg4))) shapeCasts_S4096_S1x4096 := by
  rw [V5_eq]; after_results; rfl

set_option maxHeartbeats 4000000 in
/-- The unpacked weights, converted. -/
theorem entry_w (c : Dev nD) : V5 m ρ c main_v26
    = (sitofp (F := Ideal) .bf16 (Cert.ReferenceIdeal.Read.val_main_v45 (F := Ideal) (m ((c : Thread nD τ).loc main_arg1))) : FVec Ideal S4096x4096 .bf16) := by
  rw [V5_eq]; after_results; rfl

/-- The outlier weights. -/
theorem entry_wc (c : Dev nD) : V5 m ρ c main_v29
    = (truncf (F := Ideal) .bf16 (m ((c : Thread nD τ).loc main_arg3) : FVec Ideal S4096x256 .f32) bitsLt_bf16_f32 : FVec Ideal S4096x256 .bf16) := by
  rw [V5_eq]; after_results

/-- The channel scales. -/
theorem entry_scol (c : Dev nD) : V5 m ρ c main_arg2 = m ((c : Thread nD τ).loc main_arg2) := by
  rw [V5_eq]; after_results

/-- The range test of the wrapped indices, one bit per index: 0 ≤ index ≤ 4095. -/
def takeTest (ind : IVec S256 32) : IVec S256 1 :=
  Host.reduce IntOp.andi
    (andi (cmpi .sge (Cert.ReferenceIdeal.Read.val_main_v6 (F := Ideal) ind) (broadcastInDim S256x1 ![] bcast_S_S256x1 (constantI S_ 32 0#32)))
      (cmpi .sle (Cert.ReferenceIdeal.Read.val_main_v6 (F := Ideal) ind)
        (broadcastInDim S256x1 ![0, 1] bcast_S1x1_S256x1_0_1 (broadcastInDim S1x1 ![1] bcast_S1_S1x1_1 (constantI S1 32 4095#32)))))
    (constantI S_ 1 1#1) reducesTo_S256x1_S256_d1 h_S_

set_option maxHeartbeats 4000000 in
/-- The outlier activations: the gathered columns where the index's test passes, a fixed pattern elsewhere. -/
theorem entry_act (c : Dev nD) : V5 m ρ c main_v28
    = (truncf (F := Ideal) .bf16 (select (broadcastInDim S8192x256 ![1] bcast_S256_S8192x256_1 (takeTest (m ((c : Thread nD τ).loc main_arg4))))
        (Cert.ReferenceIdeal.Read.val_main_v7 (F := Ideal) (m ((c : Thread nD τ).loc main_arg0)) (m ((c : Thread nD τ).loc main_arg4)))
        (broadcastInDim S8192x256 ![] bcast_S_S8192x256 (constant (F := Ideal) S_ .f32 0x7FC00000#32))) bitsLt_bf16_f32 : FVec Ideal S8192x256 .bf16) := by
  rw [V5_eq]; after_results; rfl

/-- An index in range is its own wrap. -/
theorem wrapped_eq (ind : IVec S256 32) (h : ∀ j, InRange (ind j)) (j : S256.Idx) :
    Cert.ReferenceIdeal.Read.val_main_v5 (F := Ideal) ind j = ind j := (h j).wrap_eq

/-- Indices in range all pass the test. -/
theorem takeTest_eq_one (ind : IVec S256 32) (h : ∀ j, InRange (ind j)) (j : S256.Idx) : takeTest ind j = 1#1 := by
  unfold takeTest
  refine reduce_andi_of_all _ _ _ _ rfl (fun i => ?_) j
  show IntOp.andi (IntOp.cmpi .sge (Cert.ReferenceIdeal.Read.val_main_v6 (F := Ideal) ind i) 0#32)
    (IntOp.cmpi .sle (Cert.ReferenceIdeal.Read.val_main_v6 (F := Ideal) ind i) 4095#32) = 1#1
  rw [Cert.ReferenceIdeal.Read.val_main_v6_apply, wrapped_eq ind h]
  exact (h _).test_eq_one

/-- With the indices in range the outlier activations are the gathered columns. -/
theorem act_at (c : Dev nD) (h : ∀ j, InRange (m ((c : Thread nD τ).loc main_arg4) j)) (M : Fin 8192) (j : Fin 256) :
    V5 m ρ c main_v28 (ix2 M j)
      = Cert.ReferenceIdeal.Read.val_main_v7 (F := Ideal) (m ((c : Thread nD τ).loc main_arg0)) (m ((c : Thread nD τ).loc main_arg4)) (ix2 M j) := by
  rw [entry_act]
  show Scalar.select (takeTest (m ((c : Thread nD τ).loc main_arg4)) _) _ _ = _
  rw [takeTest_eq_one _ h]
  exact ValueIdx.select_one _ _

/-- The masked row the first launch forms is the reference's masked activations. -/
theorem masked_at (c : Dev nD) (M : Fin 8192) (k : Fin 4096) :
    maskedRow (V5 m ρ c main_v0) (V5 m ρ c main_v10) M k
      = Cert.ReferenceIdeal.Read.val_main_v21 (F := Ideal) (m ((c : Thread nD τ).loc main_arg0)) (m ((c : Thread nD τ).loc main_arg4)) (ix2 M k) := by
  rw [entry_x, entry_mask]
  unfold maskedRow
  rw [Cert.ReferenceIdeal.Read.val_main_v21_apply, Cert.ReferenceIdeal.Read.val_main_v20_apply,
    Cert.ReferenceIdeal.Read.val_main_v19_apply, Cert.ReferenceIdeal.Read.val_main_v18_apply,
    Cert.ReferenceIdeal.Read.val_main_v17_apply, Cert.ReferenceIdeal.Read.val_main_cst_4_apply]
  rw [shapeCast_apply (Cert.ReferenceIdeal.Read.val_main_v16 (F := Ideal) (m ((c : Thread nD τ).loc main_arg4))) shapeCasts_S4096_S1x4096
    (ix2 (0 : Fin 1) k) (Cert.ReferenceIdeal.Read.idx_main_v19 (Cert.ReferenceIdeal.Read.idx_main_v20 (ix2 M k)))
    (by rw [Shape.rowMajor_val_one, Shape.rowMajor_val_two]; show k.val = 0 * 4096 + k.val; omega)]
  rfl

/-- The converted weights are the reference's, entry by entry: an integer read as a float is the integer in every
    format. -/
theorem w_at (c : Dev nD) (O k : Fin 4096) :
    V5 m ρ c main_v26 (ix2 O k)
      = Cert.ReferenceIdeal.Read.val_main_v46 (F := Ideal) (m ((c : Thread nD τ).loc main_arg1)) (ix2 O k) := by
  rw [entry_w]; rfl

/-- The outlier weights, entry by entry. -/
theorem wc_at (c : Dev nD) (O : Fin 4096) (j : Fin 256) :
    V5 m ρ c main_v29 (ix2 O j) = m ((c : Thread nD τ).loc main_arg3) (ix2 O j) := by
  rw [entry_wc]; rfl

end Cert.KernelIdeal.HostK

end
-- ==== Proof.Bridge.lean ====
/-
  The kernel's result is the reference's, for index vectors in range.

  The second launch's result array is its whole-array function of the six arrays it reads; two of them are the first
  launch's results, which are its whole-array functions of the activations and the mask; the other four, and those two,
  are what the host operations before the launches left.  Composed, entry (M, O) is the specification's entry with the
  guarded divisor, of the masked row, the weight row, the channel scale, the outlier activations and the outlier
  weights; the guard does not reach the result; and each of the five is the reference's stage of the same argument
  arrays — the outlier activations because an index in range passes the range test.  The last operation of both
  programs is the same reshape.
-/
import proofs.«422718_j68118181314581_3_alg».proof.Proof.Gen.KernelIdeal.Frame
import proofs.«422718_j68118181314581_3_alg».proof.Proof.Gen.ReferenceIdeal.Read
import proofs.«422718_j68118181314581_3_alg».proof.Proof.RegionSpec
import proofs.«422718_j68118181314581_3_alg».proof.Proof.Words
import proofs.«422718_j68118181314581_3_alg».proof.Proof.Region0
import proofs.«422718_j68118181314581_3_alg».proof.Proof.Region1
import proofs.«422718_j68118181314581_3_alg».proof.Proof.RefValue
import proofs.«422718_j68118181314581_3_alg».proof.Proof.HostK
import Idealize.ShloMosaic.Lib.StableHlo.Run
import Idealize.ShloMosaic.Lib.ValueIdx

set_option maxRecDepth 16384

noncomputable section

namespace Cert.KernelIdeal.Bridge

open Idealize.ShloMosaic Idealize.ShloMosaic.TcCoe Idealize.ShloMosaic.ValueIdx Idealize.SL.Sem Idealize.ShloMosaic.StableHlo
open Cert.KernelIdeal Cert.KernelIdeal.Gen Cert.QuantGemm

variable (m : (ℓ : Loc nD τ sig) → Buf (Elt Ideal) ℓ) (ρ : Dev nD → PrngReg)

/-- The second launch's result array from the contents the first launch was entered from. -/
theorem out_array (c : Dev nD) :
    W7 m ρ c (Proc.devRef .tc main_v31)
      = gemmArr (quantArr (V5 m ρ c main_v0) (V5 m ρ c main_v10)) (V5 m ρ c main_v26) (V5 m ρ c main_v28) (V5 m ρ c main_v29)
          (scaleArr (V5 m ρ c main_v0) (V5 m ρ c main_v10)) (V5 m ρ c main_arg2) := by
  have h7 : W7 m ρ c (Proc.devRef .tc main_v31) = (dat1 (V6 m ρ) c).arrAt 6 cfg1.N := W7_arr m ρ c 6
  have e0 : V6 m ρ c main_v30_0 = quantArr (V5 m ρ c main_v0) (V5 m ρ c main_v10) :=
    (W6_arr m ρ c 2).trans (Region0.quant_array (V5 m ρ) c)
  have e4 : V6 m ρ c main_v30_1 = scaleArr (V5 m ρ c main_v0) (V5 m ρ c main_v10) :=
    (W6_arr m ρ c 3).trans (Region0.scale_array (V5 m ρ) c)
  have e1 : V6 m ρ c main_v26 = V5 m ρ c main_v26 := W6_of_ne m ρ c main_v26 (by decide)
  have e2 : V6 m ρ c main_v28 = V5 m ρ c main_v28 := W6_of_ne m ρ c main_v28 (by decide)
  have e3 : V6 m ρ c main_v29 = V5 m ρ c main_v29 := W6_of_ne m ρ c main_v29 (by decide)
  have e5 : V6 m ρ c main_arg2 = V5 m ρ c main_arg2 := W6_of_ne m ρ c main_arg2 (by decide)
  rw [h7, Region1.gemm_array (V6 m ρ) c, e0, e1, e2, e3, e4, e5]

/-- Entry (M, O) of the second launch's result is the reference's entry. -/
theorem out_at (c : Dev nD) (h : ∀ j, InRange (m ((c : Thread nD τ).loc main_arg4) j)) (M : Fin 8192) (O : Fin 4096) :
    gemmArr (quantArr (V5 m ρ c main_v0) (V5 m ρ c main_v10)) (V5 m ρ c main_v26) (V5 m ρ c main_v28) (V5 m ρ c main_v29)
        (scaleArr (V5 m ρ c main_v0) (V5 m ρ c main_v10)) (V5 m ρ c main_arg2) (ix2 M O)
      = Cert.ReferenceIdeal.Read.val_main_v55 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (ix2 M O) := by
  have hz : maskedRow (V5 m ρ c main_v0) (V5 m ρ c main_v10) M
      = fun k => Cert.ReferenceIdeal.Read.val_main_v21 (F := Ideal) (m ((c : Thread nD τ).loc main_arg0)) (m ((c : Thread nD τ).loc main_arg4)) (ix2 M k) :=
    funext fun k => HostK.masked_at m ρ c M k
  have hw : (fun k => V5 m ρ c main_v26 (ix2 O k))
      = fun k => Cert.ReferenceIdeal.Read.val_main_v46 (F := Ideal) (m ((c : Thread nD τ).loc main_arg1)) (ix2 O k) :=
    funext fun k => HostK.w_at m ρ c O k
  have ha : (fun j => V5 m ρ c main_v28 (ix2 M j))
      = fun j => Cert.ReferenceIdeal.Read.val_main_v7 (F := Ideal) (m ((c : Thread nD τ).loc main_arg0)) (m ((c : Thread nD τ).loc main_arg4)) (ix2 M j) :=
    funext fun j => HostK.act_at m ρ c h M j
  have hc : (fun j => V5 m ρ c main_v29 (ix2 O j)) = fun j => m ((c : Thread nD τ).loc main_arg3) (ix2 O j) :=
    funext fun j => HostK.wc_at m ρ c O j
  rw [gemm_quant_apply, outAt_guarded, hz, hw, ha, hc, HostK.entry_scol, Cert.ReferenceIdeal.RefValue.result_at]

/-- The kernel's result buffer ends at the reference's last stage of the same argument arrays. -/
theorem result_eq (c : Dev nD) (h : ∀ j, InRange (m ((c : Thread nD τ).loc main_arg4) j)) :
    W8 m ρ c (Proc.devRef .tc main_v32)
      = Cert.ReferenceIdeal.Read.val_main_v56 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  have e : W8 m ρ c (Proc.devRef .tc main_v32)
      = shapeCast S4x2048x4096 (W7 m ρ c (Proc.devRef .tc main_v31)) shapeCasts_S8192x4096_S4x2048x4096 := by
    show StableHlo.after hostOps2 (W7 m ρ c) (Proc.devRef .tc main_v32) = _
    after_results; rfl
  have e55 : W7 m ρ c (Proc.devRef .tc main_v31)
      = Cert.ReferenceIdeal.Read.val_main_v55 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
    rw [out_array]
    funext i
    obtain ⟨M, O, rfl⟩ : ∃ (M : Fin 8192) (O : Fin 4096), i = ix2 M O := ⟨i 0, i 1, eq_ix2 i⟩
    exact out_at m ρ c h M O
  rw [e, e55]; rfl

end Cert.KernelIdeal.Bridge

end
-- ==== Proof.lean ====
/-
  A mixed-precision linear layer: per-row int4 quantization of the activations with the outlier columns zeroed, an
  int4-weight product dequantized by the row's and the output channel's scale, plus a product of the outlier
  activations with their full-precision weights — computed by two launches among host operations, against the plain
  formula.  Over the extended reals the two agree whenever every float input is finite and every outlier index is in
  [0, 4096): the two programs round, clip, contract, scale and add the same numbers; they divide by different numbers
  only on a row whose scale is 0, where the quotient's contribution is multiplied by that 0; and they read the same
  outlier columns because an index in range passes the kernel's range test.  The three frames are the generated ones
  (the reference's is its run with the result dropped); nothing was rewritten by the ideal pass.
-/
import proofs.«422718_j68118181314581_3_alg».proof.Defs
import proofs.«422718_j68118181314581_3_alg».proof.Proof.Gen.Kernel
import proofs.«422718_j68118181314581_3_alg».proof.Proof.Gen.Kernel.Frame
import proofs.«422718_j68118181314581_3_alg».proof.Proof.Gen.KernelIdeal
import proofs.«422718_j68118181314581_3_alg».proof.Proof.Gen.KernelIdeal.Frame
import proofs.«422718_j68118181314581_3_alg».proof.Proof.Gen.ReferenceIdeal
import proofs.«422718_j68118181314581_3_alg».proof.Proof.Gen.ReferenceIdeal.Run
import proofs.«422718_j68118181314581_3_alg».proof.Proof.Gen.ReferenceIdeal.Read
import proofs.«422718_j68118181314581_3_alg».proof.Proof.Gen.Pre_finite_inputs
import proofs.«422718_j68118181314581_3_alg».proof.Proof.KernelRun
import proofs.«422718_j68118181314581_3_alg».proof.Proof.PreDecode
import proofs.«422718_j68118181314581_3_alg».proof.Proof.Bridge
import Idealize.ShloMosaic.Adequacy
import Idealize.ShloMosaic.Init

noncomputable section

namespace Cert.Proof

open Idealize.ShloMosaic Idealize.SL.Sem

/-- The two idealized programs, from memories that agree on the arguments, both run and end with the same result:
    the reference's run names its result, and the kernel's result buffer ends at the same term. -/
theorem algebraic : Cert.algebraic_KernelIdeal_ReferenceIdeal := by
  intro m ρ m' ρ' hpre hagree
  refine ⟨fun c => Cert.ReferenceIdeal.Value.res_main_v56 (F := Ideal) m' c, ?_, Cert.ReferenceIdeal.Value.run (F := Ideal) m' ρ'⟩
  refine (θ_run Cert.KernelIdeal.defs _ _).mono (fun r h c => ⟨(h c).1.trans ?_, (h c).2⟩)
    (Cert.KernelIdeal.Whole.run (F := Ideal) m ρ)
  refine (Cert.KernelIdeal.Bridge.result_eq m ρ c (fun j => Cert.Proof.PreDecode.ind_in_range m hpre c j)).trans ?_
  refine Eq.trans ?_ (Cert.ReferenceIdeal.Read.val_main_v56_eq m' c).symm
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
